-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part5 {F : FTy → Type} [FloatOps F] (main_arg18 : FVec F S2048 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg18
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  main_v93

def fn_part4 {F : FTy → Type} [FloatOps F] (main_arg14 : FVec F S2048 .f32) (main_arg15 : FVec F S2048x2048 .f32) (main_arg16 : FVec F S2048 .f32) (main_arg17 : FVec F S2048x2048 .f32) (main_arg18 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_arg17 main_arg18 main_v63 main_v67

def fn_part2 {F : FTy → Type} [FloatOps F] (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_arg18 main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_arg11 : FVec F S2048x2048 .f32) (main_arg12 : FVec F S2048 .f32) (main_arg13 : FVec F S2048x2048 .f32) (main_arg14 : FVec F S2048 .f32) (main_arg15 : FVec F S2048x2048 .f32) (main_arg16 : FVec F S2048 .f32) (main_arg17 : FVec F S2048x2048 .f32) (main_arg18 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S4096x4096 : Shape := ⟨2, ![4096, 4096]⟩
abbrev S4096x8192 : Shape := ⟨2, ![4096, 8192]⟩
abbrev S8192 : Shape := ⟨1, ![8192]⟩
abbrev S1x8192 : Shape := ⟨2, ![1, 8192]⟩
abbrev S1024x1024 : Shape := ⟨2, ![1024, 1024]⟩
abbrev S1024x2048 : Shape := ⟨2, ![1024, 2048]⟩
abbrev S1x2048 : Shape := ⟨2, ![1, 2048]⟩
abbrev S256x8192 : Shape := ⟨2, ![256, 8192]⟩
abbrev S256x2048 : Shape := ⟨2, ![256, 2048]⟩

abbrev nBuf : Space → Nat
  | .hbm => 52
  | .vmem => 17
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S4096x2048, .bf16⟩
  | .hbm, ⟨20, _⟩ => ⟨S4096x2048, .bf16⟩
  | .hbm, ⟨21, _⟩ => ⟨S4096x4096, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S4096x2048, .bf16⟩
  | .hbm, ⟨27, _⟩ => ⟨S2048x2048, .bf16⟩
  | .hbm, ⟨28, _⟩ => ⟨S2048x2048, .bf16⟩
  | .hbm, ⟨29, _⟩ => ⟨S2048x2048, .bf16⟩
  | .hbm, ⟨30, _⟩ => ⟨S2048x2048, .bf16⟩
  | .hbm, ⟨31, _⟩ => ⟨S4096x2048, .bf16⟩
  | .hbm, ⟨32, _⟩ => ⟨S2048x2048, .bf16⟩
  | .hbm, ⟨33, _⟩ => ⟨S2048x2048, .bf16⟩
  | .hbm, ⟨34, _⟩ => ⟨S2048x2048, .bf16⟩
  | .hbm, ⟨35, _⟩ => ⟨S2048x2048, .bf16⟩
  | .hbm, ⟨36, _⟩ => ⟨S4096x2048, .bf16⟩
  | .hbm, ⟨37, _⟩ => ⟨S2048x2048, .bf16⟩
  | .hbm, ⟨38, _⟩ => ⟨S2048x2048, .bf16⟩
  | .hbm, ⟨39, _⟩ => ⟨S2048x2048, .bf16⟩
  | .hbm, ⟨40, _⟩ => ⟨S2048x2048, .bf16⟩
  | .hbm, ⟨41, _⟩ => ⟨S4096x2048, .bf16⟩
  | .hbm, ⟨42, _⟩ => ⟨S4096x8192, .bf16⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S2048, .f32⟩
  | .hbm, ⟨47, _⟩ => ⟨S8192, .f32⟩
  | .hbm, ⟨48, _⟩ => ⟨S1x8192, .f32⟩
  | .hbm, ⟨49, _⟩ => ⟨S4096x8192, .f32⟩
  | .hbm, ⟨50, _⟩ => ⟨S4096x2048, .f32⟩
  | .hbm, ⟨51, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | .local _ .vmem, ⟨9, _⟩ => ⟨S256x8192, .f32⟩
  | .local _ .vmem, ⟨10, _⟩ => ⟨S256x8192, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31_0 : Ref sig .tc := ⟨.hbm, 50, rfl⟩
abbrev main_v31_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  concatenates_S4096x2048_S4096x2048_S4096x4096_d1 : Shape.Concatenates [S4096x2048, S4096x2048] S4096x4096 1
  transposes_S2048x2048_S2048x2048_1_0 : S2048x2048.Transposes [1, 0] S2048x2048
  concatenates_S2048x2048_S2048x2048_S4096x2048_d0 : Shape.Concatenates [S2048x2048, S2048x2048] S4096x2048 0
  concatenates_S4096x2048_S4096x2048_S4096x2048_S4096x2048_S4096x8192_d1 : Shape.Concatenates [S4096x2048, S4096x2048, S4096x2048, S4096x2048] S4096x8192 1
  concatenates_S2048_S2048_S2048_S2048_S8192_d0 : Shape.Concatenates [S2048, S2048, S2048, S2048] S8192 0
  shapeCasts_S8192_S1x8192 : S8192.ShapeCasts S1x8192
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  slices_S256x8192_o0_0_S256x2048 : S256x8192.Slices ![0, 0] S256x2048
  slices_S256x8192_o0_2048_S256x2048 : S256x8192.Slices ![0, 2048] S256x2048
  slices_S256x8192_o0_4096_S256x2048 : S256x8192.Slices ![0, 4096] S256x2048
  slices_S256x8192_o0_6144_S256x2048 : S256x8192.Slices ![0, 6144] S256x2048
  inb_S256x2048_S256x2048_0_0 : ∀ a, (![0, 0] : Fin 2 → Nat) a + S256x2048.size a ≤ S256x2048.size a
  h_S256x2048 : 0 < S256x2048.numel
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x8192.size a
  hwx0_1 : ∀ i : grid0.Coords, EltTy.bits .bf16 = 32 ∨ (Rect.block (s := S4096x8192) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S4096x8192.size a
  hwx0_3 : ∀ i : grid0.Coords, EltTy.bits .f32 = 32 ∨ (Rect.block (s := S4096x8192) S1024x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S4096x8192.size a
  hwx1_0 : ∀ i : grid1.Coords, EltTy.bits .f32 = 32 ∨ (Rect.block (s := S4096x8192) S256x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S4096x2048.size a
  hwx1_1 : ∀ i : grid1.Coords, EltTy.bits .f32 = 32 ∨ (Rect.block (s := S4096x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S4096x2048.size a
  hwx1_2 : ∀ i : grid1.Coords, EltTy.bits .f32 = 32 ∨ (Rect.block (s := S4096x2048) S256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S4096x2048.size a
  hwx1_3 : ∀ i : grid1.Coords, EltTy.bits .f32 = 32 ∨ (Rect.block (s := S4096x2048) S256x2048.size (cc1_transform_3 i) (hinb1_3 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v30) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31_0) S256x2048.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31_1) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S2048x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S2048x2048, .f32⟩
  | .hbm, ⟨18, _⟩ => ⟨S2048, .f32⟩
  | .hbm, ⟨19, _⟩ => ⟨S2048x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S2048x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S2048x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S2048x2048, .f32⟩
  | .hbm, ⟨44, _⟩ => ⟨S4096x2048, .f32⟩
  | .hbm, ⟨45, _⟩ => ⟨S1x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S2048x2048, .f32⟩
  | .hbm, ⟨58, _⟩ => ⟨S4096x2048, .f32⟩
  | .hbm, ⟨59, _⟩ => ⟨S1x2048, .f32⟩
  | .hbm, ⟨60, _⟩ => ⟨S4096x2048, .f32⟩
  | .hbm, ⟨61, _⟩ => ⟨S4096x2048, .f32⟩
  | .hbm, ⟨62, _⟩ => ⟨S2048x2048, .f32⟩
  | .hbm, ⟨63, _⟩ => ⟨S4096x2048, .f32⟩
  | .hbm, ⟨64, _⟩ => ⟨S1x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S2048x2048, .f32⟩
  | .hbm, ⟨70, _⟩ => ⟨S4096x2048, .f32⟩
  | .hbm, ⟨71, _⟩ => ⟨S1x2048, .f32⟩
  | .hbm, ⟨72, _⟩ => ⟨S4096x2048, .f32⟩
  | .hbm, ⟨73, _⟩ => ⟨S4096x2048, .f32⟩
  | .hbm, ⟨74, _⟩ => ⟨S2048x2048, .f32⟩
  | .hbm, ⟨75, _⟩ => ⟨S4096x2048, .f32⟩
  | .hbm, ⟨76, _⟩ => ⟨S1x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S_, .f32⟩
  | .hbm, ⟨83, _⟩ => ⟨S4096x2048, .f32⟩
  | .hbm, ⟨84, _⟩ => ⟨S4096x2048, .f32⟩
  | .hbm, ⟨85, _⟩ => ⟨S_, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_3 : Ref sig .tc := ⟨.hbm, 82, rfl⟩
abbrev main_v59 : Ref sig .tc := ⟨.hbm, 83, rfl⟩
abbrev main_v60 : Ref sig .tc := ⟨.hbm, 84, rfl⟩
abbrev main_cst_4 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.KB.R0.lean ====
import proofs.«177083_j81518479278547_1_alg».proof.Proof.Gen.Kernel.Launch
import proofs.«177083_j81518479278547_1_alg».proof.Proof.Gen.Kernel.Skeleton
import proofs.«177083_j81518479278547_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The two branch conditions and the output window's idle points, in closed form over the grid -/

/-- The first `scf.if`'s condition from the grid coordinates: the contracted axis' coordinate is 0. -/
abbrev condFirst (i : grid0.Coords) : Prop := (Scalar.cmpi .ne (Scalar.extui (Scalar.cmpi .eq (BitVec.ofNat 32 (i 2).val) 0#32)) 0#32) = 1#1
/-- It holds at the points ≡ 0 (mod 4): the contracted axis is innermost and has extent 4. -/
theorem hcondFirst : ∀ t : Fin cfg0.N, condFirst (grid0.coords t) ↔ t.val % 4 = 0 :=
  (by decide +kernel : ∀ t : Fin grid0.N, condFirst (grid0.coords t) ↔ t.val % 4 = 0)
/-- The second `scf.if`'s condition: the contracted axis' coordinate is 3. -/
abbrev condLast (i : grid0.Coords) : Prop := k0_cond2 i = 1#1
/-- It holds at the points ≡ 3 (mod 4). -/
theorem hcondLast : ∀ t : Fin cfg0.N, condLast (grid0.coords t) ↔ t.val % 4 = 3 :=
  (by decide +kernel : ∀ t : Fin grid0.N, condLast (grid0.coords t) ↔ t.val % 4 = 3)

/-- The three input windows are never idle. -/
theorem live0_0 : ∀ i, cfg0.idle 0 i = false := fun _ => rfl
theorem live0_1 : ∀ i, cfg0.idle 1 i = false := fun _ => rfl
theorem live0_2 : ∀ i, cfg0.idle 2 i = false := fun _ => rfl
/-- The output window is idle off the last step of a run along the contracted axis, -/
theorem idle0_3 : ∀ t : Fin cfg0.N, ¬ t.val % 4 = 3 → cfg0.idle 3 (grid0.coords t) = true :=
  (by decide +kernel : ∀ t : Fin grid0.N, ¬ t.val % 4 = 3 → cfg0.idle 3 (grid0.coords t) = true)
/-- live at it, -/
theorem live0_3 : ∀ t : Fin cfg0.N, t.val % 4 = 3 → cfg0.idle 3 (grid0.coords t) = false :=
  (by decide +kernel : ∀ t : Fin grid0.N, t.val % 4 = 3 → cfg0.idle 3 (grid0.coords t) = false)
/-- and not written back off it. -/
theorem noFlush0_3 (t : Fin cfg0.N) (h : ¬ t.val % 4 = 3) : (cfg0.win 3).flush t = false := by
  cases hf : (cfg0.win 3).flush t with
  | false => rfl
  | true => exact absurd ((flush0_3 t).mp hf) h

/-- The zero offsets of a whole-buffer access, as a constant function. -/
theorem hz2 : (![0, 0] : Fin 2 → Nat) = fun _ => 0 := funext fun a => by fin_cases a <;> rfl

/-- A store through the whole-shape rectangle at zero offsets, made LAST, leaves its payload, whatever the buffer held and whatever
    was stored before it. -/
theorem read_writes_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩), View.canon_cons_unit_zero h inb]

/-! ## The body on whole staging memrefs, in its three control cases -/

set_option maxHeartbeats 1000000 in
/-- FIRST step of a run along the contracted axis (reset taken, output store not taken): the accumulator, whatever it held,
    ends at the zero block plus the product of the two input blocks; the output buffer is handed back untouched. -/
theorem runFirst (c : Dev nD) (i : grid0.Coords)
    (arg3 : Memref sig .tc .vmem S1024x1024 .bf16) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (arg7 : Memref sig .tc .vmem S1024x2048 .f32) (harg7 : arg7.IsWhole) (hc0 : condFirst i) (hc1 : ¬condLast i)
    (x0 : Vec F S1024x1024 .bf16) (x1 : Vec F S1024x2048 .bf16) (x2 : Vec F S1x2048 .f32) (xo : Vec F S1024x2048 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k0_pay2 (k0_pay1 (F := F)) x0 x1)) -∗ K ⟨⟩))
      ⊢ wp frame (wpE (defs₀ (F := F)) Variants.none c none) E (cc0__matmul_kernel i arg3 harg3 arg4 harg4 arg5 harg5 arg6 harg6 arg7 harg7) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  -- the last store covers the accumulator: its payload over the reset's zero block, read back
  sl_unfold_words
  rw [read_writes_whole _ _ hz2, View.readCov_unit_zero (S := S1024x2048) _ hz2]
  simp only [View.readAt_eq_ld, harg3.read_unread, harg4.read_unread, View.ld_unit_zero (S := S1024x1024) hz2, View.ld_unit_zero (S := S1024x2048) hz2]

set_option maxHeartbeats 1000000 in
/-- A MIDDLE step (neither branch taken): the accumulator holding `xs` ends at `xs` plus the product; the output buffer is
    handed back untouched. -/
theorem runMid (c : Dev nD) (i : grid0.Coords)
    (arg3 : Memref sig .tc .vmem S1024x1024 .bf16) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (arg7 : Memref sig .tc .vmem S1024x2048 .f32) (harg7 : arg7.IsWhole) (hc0 : ¬condFirst i) (hc1 : ¬condLast i)
    (x0 : Vec F S1024x1024 .bf16) (x1 : Vec F S1024x2048 .bf16) (x2 : Vec F S1x2048 .f32) (xo : Vec F S1024x2048 .f32) (xs : Vec F S1024x2048 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k0_pay2 xs x0 x1)) -∗ K ⟨⟩))
      ⊢ wp frame (wpE (defs₀ (F := F)) Variants.none c none) E (cc0__matmul_kernel i arg3 harg3 arg4 harg4 arg5 harg5 arg6 harg6 arg7 harg7) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3
  obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [read_writes_whole _ _ hz2]
  simp only [View.readAt_eq_ld, harg3.read_unread, harg4.read_unread, harg7.read_unread, View.ld_unit_zero (S := S1024x1024) hz2, View.ld_unit_zero (S := S1024x2048) hz2]

set_option maxHeartbeats 1000000 in
/-- LAST step (reset not taken, output store taken): the accumulator holding `xs` ends at `xs` plus the product, and the output
    buffer, whatever it held, at that sum plus the bias row. -/
theorem runLast (c : Dev nD) (i : grid0.Coords)
    (arg3 : Memref sig .tc .vmem S1024x1024 .bf16) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (arg7 : Memref sig .tc .vmem S1024x2048 .f32) (harg7 : arg7.IsWhole) (hc0 : ¬condFirst i) (hc1 : condLast i)
    (x0 : Vec F S1024x1024 .bf16) (x1 : Vec F S1024x2048 .bf16) (x2 : Vec F S1x2048 .f32) (xs : Vec F S1024x2048 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 xs x0 x1) x2) ∗ owns (c : Thread nD τ) arg7 fullShare (k0_pay2 xs x0 x1)) -∗ K ⟨⟩))
      ⊢ wp frame (wpE (defs₀ (F := F)) Variants.none c none) E (cc0__matmul_kernel i arg3 harg3 arg4 harg4 arg5 harg5 arg6 harg6 arg7 harg7) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2
  obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    -- the output's one store covers it; its payload reads the accumulator just stored and the bias row
    sl_unfold_words
    rw [read_writes_whole _ _ hz2, View.readCov_unit_zero (S := S1024x2048) _ hz2]
    simp only [View.readAt_eq_ld, harg3.read_unread, harg4.read_unread, harg5.read_unread, harg7.read_unread, View.ld_unit_zero (S := S1024x1024) hz2, View.ld_unit_zero (S := S1024x2048) hz2, View.ld_unit_zero (S := S1x2048) hz2]
  iexists _; isplitr
  swap; · iexact HS
  ipureintro
  sl_unfold_words
  rw [read_writes_whole _ _ hz2]
  simp only [View.readAt_eq_ld, harg3.read_unread, harg4.read_unread, harg7.read_unread, View.ld_unit_zero (S := S1024x1024) hz2, View.ld_unit_zero (S := S1024x2048) hz2]

variable (V : (c : Dev nD) → (b : Ref sig .tc) → Buf (Elt F) ((c : Thread nD τ).loc b))

/-! # The first pallas_call: the tiled matrix product with a carried accumulator -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after grid point `n`: at the first step of a run along the contracted axis (`n % 4 = 0`) the
    zero block plus that step's product, afterwards the previous accumulator plus the step's product. -/
def acc0 (c : Dev nD) : (n : ℕ) → n < cfg0.N → Vec F S1024x2048 .f32
  | 0, h => k0_pay2 (k0_pay1 (F := F)) (iblk0 V c 0 ⟨0, h⟩) (iblk0 V c 1 ⟨0, h⟩)
  | n + 1, h =>
    if (n + 1) % 4 = 0 then k0_pay2 (k0_pay1 (F := F)) (iblk0 V c 0 ⟨n + 1, h⟩) (iblk0 V c 1 ⟨n + 1, h⟩)
    else k0_pay2 (acc0 c n (Nat.lt_of_succ_lt h)) (iblk0 V c 0 ⟨n + 1, h⟩) (iblk0 V c 1 ⟨n + 1, h⟩)

/-- What the last step of a run along the contracted axis stores into the output block: the accumulator plus the bias row. -/
def outv0 (c : Dev nD) (t : Fin cfg0.N) : Vec F S1024x2048 .f32 :=
  k0_pay3 (acc0 V c t.val t.isLt) (iblk0 V c 2 t)

/-- The scratch accumulator as a memref. -/
abbrev scM0 : Memref sig .tc .vmem S1024x2048 .f32 := Memref.whole cc0_scratch0

/-- The scoped buffers of the core other than this call's staging buffers and its accumulator (the second call's
    staging buffers), each whole at some contents. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The invariant before position `n`: before the first point the scoped buffers at anything; afterwards the
    accumulator at `acc0` of the point before, the other scoped buffers at anything. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ restS0 (F := F) c ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outv0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outv0 V c t := by dsimp only [dat0]

/-! ## The staging memrefs at a point, and the invariant's two forms -/

/-- Each window's current staging memref at point `t`, as the pipeline passes it to the body, with its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .f32 := win0_3.stage (cfg0.slots t 3)
abbrev hs0_3 (t : Fin cfg0.N) : (ms0_3 t).IsWhole := hstage0_3 ((cfg0.slots t 3).cast nbuf0_3)

/-- What the launch hands the region, with the accumulator as a memref owned at some contents and the second call's staging
    buffers apart. -/
theorem PhiA0_eq (c : Dev nD) :
    (Pipeline.ΦA spec0 c : sProp 𝕄)
      = iprop(((∃ d, owns (c : Thread nD τ) scM0 fullShare d) ∗ restS0 (F := F) c) ∗ (∃ r, prngReg c r)) := by
  unfold Pipeline.ΦA restS0; rw [scopedRest0_eq]; simp only [scM0, owns_whole]; try rfl

theorem PhiS0_zero (c : Dev nD) (n : ℕ) (h : n ≤ cfg0.N) (hz : n = 0) : PhiS0 V c n h = Pipeline.ΦA spec0 c := by
  subst hz; rfl

/-- After point `n`: the accumulator at that point's running sum. -/
theorem PhiS0_succ (c : Dev nD) (n : ℕ) (hn : n < cfg0.N) :
    PhiS0 V c (n + 1) hn = iprop(owns (c : Thread nD τ) scM0 fullShare (acc0 V c n hn) ∗ restS0 (F := F) c ∗ (∃ r, prngReg c r)) := rfl

/-- Before a point that is not the first: the accumulator at what the point before left. -/
theorem PhiS0_pos (c : Dev nD) (n : ℕ) (h : n ≤ cfg0.N) (hz : n ≠ 0) :
    PhiS0 V c n h = iprop(owns (c : Thread nD τ) scM0 fullShare (acc0 V c (n - 1) (by omega)) ∗ restS0 (F := F) c ∗ (∃ r, prngReg c r)) := by
  cases n with
  | zero => exact absurd rfl hz
  | succ n => rfl

/-- The invariant at a point's start, restated at `t.val`. -/
theorem Phi0_castSucc (c : Dev nD) (t : Fin cfg0.N) :
    (dat0 V c).Φ t.castSucc = PhiS0 V c t.val (Nat.le_of_lt t.isLt) := by
  dsimp only [dat0]; simp only [Fin.coe_castSucc]

/-! ## The running sum, one step unfolded -/

/-- At the first step of a run along the contracted axis the running sum starts afresh from the zero block. -/
theorem acc0_first (c : Dev nD) (t : Fin cfg0.N) (h0 : t.val % 4 = 0) :
    acc0 V c t.val t.isLt = k0_pay2 (k0_pay1 (F := F)) (iblk0 V c 0 t) (iblk0 V c 1 t) := by
  obtain ⟨n, hn⟩ := t
  cases n with
  | zero => rfl
  | succ n => exact if_pos h0

/-- At every other step it adds the step's product to what the point before left. -/
theorem acc0_step (c : Dev nD) (t : Fin cfg0.N) (h0 : ¬t.val % 4 = 0) :
    acc0 V c t.val t.isLt = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact if_neg h0

/-! ## What the body finds in the input windows' buffers -/

/-- Each input's current staging buffer holds its block at every point, fetched there or not: the left operand and the right
    operand are fetched at every point; the bias row only where a run along the contracted axis starts, and its block index
    does not move in between. -/
theorem before0_0 (c : Dev nD) (t : Fin cfg0.N) (d) : (dat0 V c).before 0 t d = iblk0 V c 0 t :=
  ((dat0 V c).before_in_eq_fetched 0 rfl live0_0 (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl live0_1 (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl live0_2 (fun _ _ _ => rfl)
    (fun t => by rw [after0_2]; unfold Dat.blockOf iblk0; rw [A_eq0]; try rfl) t d).trans
    (by unfold Dat.fetched Dat.blockOf iblk0; rw [A_eq0]; try rfl)

/-- The body leaves each input's buffer at its block (the windows are never idle). -/
theorem leaves0_0 (c : Dev nD) (t : Fin cfg0.N) :
    (dat0 V c).leavesExact 0 t = owns (c : Thread nD τ) (ms0_0 t) fullShare (iblk0 V c 0 t) := by
  unfold Dat.leavesExact; rw [live0_0, after0_0]
theorem leaves0_1 (c : Dev nD) (t : Fin cfg0.N) :
    (dat0 V c).leavesExact 1 t = owns (c : Thread nD τ) (ms0_1 t) fullShare (iblk0 V c 1 t) := by
  unfold Dat.leavesExact; rw [live0_1, after0_1]
theorem leaves0_2 (c : Dev nD) (t : Fin cfg0.N) :
    (dat0 V c).leavesExact 2 t = owns (c : Thread nD τ) (ms0_2 t) fullShare (iblk0 V c 2 t) := by
  unfold Dat.leavesExact; rw [live0_2, after0_2]
/-- At the last step of a run along the contracted axis the output's buffer is left at the sum plus the bias row. -/
theorem leaves0_3 (c : Dev nD) (t : Fin cfg0.N) (h3 : t.val % 4 = 3) :
    (dat0 V c).leavesExact 3 t = owns (c : Thread nD τ) (ms0_3 t) fullShare (outv0 V c t) := by
  unfold Dat.leavesExact; rw [live0_3 t h3, after0_3]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks (`before0_W`); `t.val % 4` says which control case the point is
    in. At the first step of a run the accumulator (at the previous run's last sum, or at anything before the first point) is
    reset and ends at `acc0`'s fresh start; at the other steps it holds what the point before left and ends one product
    further. Off the last step the output's buffer is idle and handed back as found; at the last step it ends at the sum plus
    the bias row. The other scoped buffers and the generator register pass through; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 64 := lt_of_lt_of_eq t.isLt (show cfg0.N = 64 from N_0)
  by_cases h0 : t.val % 4 = 0
  · -- first step of a run: reset, then accumulate
    have h3 : ¬t.val % 4 = 3 := by omega
    rw [Dat.leavesExact_idle (dat0 V c) 3 t (idle0_3 t h3) (noFlush0_3 t h3), acc0_first V c t h0]
    by_cases hz : t.val = 0
    · rw [Phi0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩⟩
      iapply (runFirst c (grid0.coords t) (ms0_0 t) (hs0_0 t) (ms0_1 t) (hs0_1 t) (ms0_2 t) (hs0_2 t) (ms0_3 t) (hs0_3 t) scM0 (Memref.isWhole_whole _)
        ((hcondFirst t).mpr h0) (fun h => h3 ((hcondLast t).mp h)) (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi0_castSucc V c t, PhiS0_pos V c _ _ hz]
      iintro ⟨⟨HS, HR, Hg⟩, Ho, ⟨%d0, H0⟩, ⟨%d1, H1⟩, ⟨%d2, H2⟩, ⟨%d3, H3⟩⟩
      iapply (runFirst c (grid0.coords t) (ms0_0 t) (hs0_0 t) (ms0_1 t) (hs0_1 t) (ms0_2 t) (hs0_2 t) (ms0_3 t) (hs0_3 t) scM0 (Memref.isWhole_whole _)
        ((hcondFirst t).mpr h0) (fun h => h3 ((hcondLast t).mp h)) (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [Phi0_castSucc V c t, PhiS0_pos V c _ _ hz, acc0_step V c t h0]
    by_cases h3 : t.val % 4 = 3
    · -- last step of a run: accumulate, then the output is the sum plus the bias row
      rw [leaves0_3 V c t h3]
      unfold outv0
      rw [acc0_step V c t h0]
      iintro ⟨⟨HS, HR, Hg⟩, Ho, ⟨%d0, H0⟩, ⟨%d1, H1⟩, ⟨%d2, H2⟩, ⟨%d3, H3⟩⟩
      iapply (runLast c (grid0.coords t) (ms0_0 t) (hs0_0 t) (ms0_1 t) (hs0_1 t) (ms0_2 t) (hs0_2 t) (ms0_3 t) (hs0_3 t) scM0 (Memref.isWhole_whole _)
        (fun h => h0 ((hcondFirst t).mp h)) ((hcondLast t).mpr h3) (iblk0 V c 0 t) (iblk0 V c 1 t) (iblk0 V c 2 t)
        (acc0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · -- a middle step: accumulate only
      rw [Dat.leavesExact_idle (dat0 V c) 3 t (idle0_3 t h3) (noFlush0_3 t h3)]
      iintro ⟨⟨HS, HR, Hg⟩, Ho, ⟨%d0, H0⟩, ⟨%d1, H1⟩, ⟨%d2, H2⟩, ⟨%d3, H3⟩⟩
      iapply (runMid c (grid0.coords t) (ms0_0 t) (hs0_0 t) (ms0_1 t) (hs0_1 t) (ms0_2 t) (hs0_2 t) (ms0_3 t) (hs0_3 t) scM0 (Memref.isWhole_whole _)
        (fun h => h0 ((hcondFirst t).mp h)) (fun h => h3 ((hcondLast t).mp h)) (iblk0 V c 0 t) (iblk0 V c 1 t) (iblk0 V c 2 t) ((dat0 V c).before 3 t d3)
        (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's form back: the accumulator's running sum is forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS, HR, Hg⟩
  isplitl [HS HR]
  · isplitl [HS]; · iexists _; iexact HS
    iexact HR
  iexact Hg

/-- The same after the last of the 64 points. -/
theorem hout0 (c : Dev nD) : (dat0 V c).Φ (Fin.last cfg0.N) ⊢ Pipeline.ΦA spec0 c :=
  Phi0_out V c _ (by rw [Fin.val_last]; have : cfg0.N = 64 := N_0; omega)

end Cert.Kernel.Hand

end
-- ==== Proof.KB.R1.lean ====
import proofs.«177083_j81518479278547_1_alg».proof.Proof.Gen.Kernel.Launch
import proofs.«177083_j81518479278547_1_alg».proof.Proof.Gen.Kernel.Skeleton
import proofs.«177083_j81518479278547_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call: the gates combined row block by row block -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (iblk1 V c 0 t) (iblk1 V c 1 t)
    | ⟨3, _⟩ => k1_pay2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (iblk1 V c 0 t) (iblk1 V c 1 t) := by dsimp only [dat1]
theorem after1_3 (c : Dev nD) (t : Fin cfg1.N) : (dat1 V c).after 3 t = k1_pay2 (iblk1 V c 0 t) (iblk1 V c 1 t) := by dsimp only [dat1]

/-! ## The body's accesses: every load and store goes through the whole block -/

/-- The zero offsets, as the printed rectangles spell them. -/
theorem zeroOffsets : (![0, 0] : Fin 2 → Nat) = fun _ => 0 := funext fun a => by fin_cases a <;> rfl

/-- The whole state block (256 rows of cell state, or of either output). -/
abbrev stateRect : Rect S256x2048 := Rect.unit (s := S256x2048) ![0, 0] S256x2048.size inb_S256x2048_S256x2048_0_0

/-- One store through the whole state block covers it. -/
theorem stateCover (p0 : Vec F S256x2048 .f32) (y : S256x2048.Idx) :
    ∃ pc ∈ ([⟨stateRect, p0⟩] : List (View.Piece (Elt F) S256x2048 .f32)), y ∈ pc.1.set :=
  ⟨_, List.mem_singleton_self _, View.mem_set_unit_zero zeroOffsets inb_S256x2048_S256x2048_0_0 y⟩

/-- What ONE whole-block store leaves in a state-shaped buffer, whatever it held, reads back as the store's payload. -/
theorem read_stateStore {κ : Kind} {sp : Space} (v : View sig κ sp S256x2048 .f32) (f : v.ty.Contents (Elt F))
    (p0 : Vec F S256x2048 .f32) :
    v.read (Elt F) (v.writes (Elt F) f [⟨stateRect, p0⟩]) = p0 := by
  rw [View.read_writes_eq_canon _ _ _ (stateCover p0), View.canon_unit_zero zeroOffsets]

/-! ## The body's triple -/

set_option maxHeartbeats 1000000 in
/-- The gate combine on whole staging memrefs: the gate block at `x0`, the old cell state at `x1`, the two outputs'
    memrefs at anything. It runs to the continuation holding the inputs as they were, the new hidden state
    `o ⊙ tanh c'` (`k1_pay3`) in the first output and the new cell state `c' = f ⊙ c + i ⊙ g` (`k1_pay2`) in the
    second. Each output is loaded once before its store, a value nothing reads. -/
theorem sound_kernel1 (c : Dev nD) (E : Set ℕ) (i : grid1.Coords)
    (arg1 : Memref sig .tc .vmem S256x8192 .f32) (harg1 : arg1.IsWhole)
    (arg2 : Memref sig .tc .vmem S256x2048 .f32) (harg2 : arg2.IsWhole)
    (arg3 : Memref sig .tc .vmem S256x2048 .f32) (harg3 : arg3.IsWhole)
    (arg4 : Memref sig .tc .vmem S256x2048 .f32) (harg4 : arg4.IsWhole)
    (x0 : Vec F S256x8192 .f32) (x1 : Vec F S256x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay3 x0 x1) ∗ owns (c : Thread nD τ) arg4 fullShare (k1_pay2 x0 x1)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_stateStore]
    simp only [View.readAt_eq_ld, View.ld_unit_zero (S := S256x8192) zeroOffsets, View.ld_unit_zero (S := S256x2048) zeroOffsets]
  iexists _; isplitr
  swap; · iexact H3
  ipureintro
  rw [read_stateStore]
  simp only [View.readAt_eq_ld, View.ld_unit_zero (S := S256x8192) zeroOffsets, View.ld_unit_zero (S := S256x2048) zeroOffsets]

/-! ## What the body finds in its input windows -/

/-- The gate window's current staging buffer holds its block at every point: it is fetched at every point. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- So does the old cell state's. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`, the four windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input windows' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Run.lean ====
import proofs.«177083_j81518479278547_1_alg».proof.Proof.Gen.Kernel.Launch
import proofs.«177083_j81518479278547_1_alg».proof.Proof.Gen.Kernel.Skeleton
import proofs.«177083_j81518479278547_1_alg».proof.Proof.Gen.Kernel.Points
import proofs.«177083_j81518479278547_1_alg».proof.Proof.Gen.Kernel.Regions
import proofs.«177083_j81518479278547_1_alg».proof.Proof.KB.R0
import proofs.«177083_j81518479278547_1_alg».proof.Proof.KB.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! # The whole program: the host operations, then the two pallas_calls

The unscoped buffers' contents at the four boundaries of @main: at launch (`B0`), after the host operations that build
`[x | h]`, the stacked weights and the bias row (`B1`), after the matrix product (`B2`: only its result array
changed, to what its write-backs leave), after the gate combine (`B3`: only its two result arrays changed). -/

abbrev B0 : Dev nD → Valuation τ sig (Elt F) := fun c b => m (c, b)
abbrev B1 : Dev nD → Valuation τ sig (Elt F) := fun c => StableHlo.after hostOps0 (B0 m c)
/-- The same read at the TensorCore's references: what the first call's proof data take. -/
abbrev E1 : (c : Dev nD) → (b : Ref sig .tc) → Buf (Elt F) ((c : Thread nD τ).loc b) := fun c b => B1 m c b
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ## The arguments end as launched -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := B2_of_ne m c main_arg0 (by decide)
    _ = m ((c : Thread nD τ).loc main_arg0) := V1_of m c main_arg0 (by decide)
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = m ((c : Thread nD τ).loc main_arg1) := V1_of m c main_arg1 (by decide)
theorem B3_main_arg2 (c : Dev nD) : B3 m c (Proc.devRef .tc main_arg2) = m ((c : Thread nD τ).loc main_arg2) :=
  calc B3 m c (Proc.devRef .tc main_arg2)
    _ = B2 m c (Proc.devRef .tc main_arg2) := (B3_arr m c 1).trans (((dat1 (E2 m) c).arrAt_in 1 rfl _).trans (A_eq1 (E2 m) c 1))
    _ = B1 m c (Proc.devRef .tc main_arg2) := B2_of_ne m c main_arg2 (by decide)
    _ = m ((c : Thread nD τ).loc main_arg2) := V1_of m c main_arg2 (by decide)
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = m ((c : Thread nD τ).loc main_arg3) := V1_of m c main_arg3 (by decide)
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = m ((c : Thread nD τ).loc main_arg4) := V1_of m c main_arg4 (by decide)
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = m ((c : Thread nD τ).loc main_arg5) := V1_of m c main_arg5 (by decide)
theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = B1 m c (Proc.devRef .tc main_arg6) := B2_of_ne m c main_arg6 (by decide)
    _ = m ((c : Thread nD τ).loc main_arg6) := V1_of m c main_arg6 (by decide)
theorem B3_main_arg7 (c : Dev nD) : B3 m c (Proc.devRef .tc main_arg7) = m ((c : Thread nD τ).loc main_arg7) :=
  calc B3 m c (Proc.devRef .tc main_arg7)
    _ = B2 m c (Proc.devRef .tc main_arg7) := B3_of_ne m c main_arg7 (by decide)
    _ = B1 m c (Proc.devRef .tc main_arg7) := B2_of_ne m c main_arg7 (by decide)
    _ = m ((c : Thread nD τ).loc main_arg7) := V1_of m c main_arg7 (by decide)
theorem B3_main_arg8 (c : Dev nD) : B3 m c (Proc.devRef .tc main_arg8) = m ((c : Thread nD τ).loc main_arg8) :=
  calc B3 m c (Proc.devRef .tc main_arg8)
    _ = B2 m c (Proc.devRef .tc main_arg8) := B3_of_ne m c main_arg8 (by decide)
    _ = B1 m c (Proc.devRef .tc main_arg8) := B2_of_ne m c main_arg8 (by decide)
    _ = m ((c : Thread nD τ).loc main_arg8) := V1_of m c main_arg8 (by decide)
theorem B3_main_arg9 (c : Dev nD) : B3 m c (Proc.devRef .tc main_arg9) = m ((c : Thread nD τ).loc main_arg9) :=
  calc B3 m c (Proc.devRef .tc main_arg9)
    _ = B2 m c (Proc.devRef .tc main_arg9) := B3_of_ne m c main_arg9 (by decide)
    _ = B1 m c (Proc.devRef .tc main_arg9) := B2_of_ne m c main_arg9 (by decide)
    _ = m ((c : Thread nD τ).loc main_arg9) := V1_of m c main_arg9 (by decide)
theorem B3_main_arg10 (c : Dev nD) : B3 m c (Proc.devRef .tc main_arg10) = m ((c : Thread nD τ).loc main_arg10) :=
  calc B3 m c (Proc.devRef .tc main_arg10)
    _ = B2 m c (Proc.devRef .tc main_arg10) := B3_of_ne m c main_arg10 (by decide)
    _ = B1 m c (Proc.devRef .tc main_arg10) := B2_of_ne m c main_arg10 (by decide)
    _ = m ((c : Thread nD τ).loc main_arg10) := V1_of m c main_arg10 (by decide)
theorem B3_main_arg11 (c : Dev nD) : B3 m c (Proc.devRef .tc main_arg11) = m ((c : Thread nD τ).loc main_arg11) :=
  calc B3 m c (Proc.devRef .tc main_arg11)
    _ = B2 m c (Proc.devRef .tc main_arg11) := B3_of_ne m c main_arg11 (by decide)
    _ = B1 m c (Proc.devRef .tc main_arg11) := B2_of_ne m c main_arg11 (by decide)
    _ = m ((c : Thread nD τ).loc main_arg11) := V1_of m c main_arg11 (by decide)
theorem B3_main_arg12 (c : Dev nD) : B3 m c (Proc.devRef .tc main_arg12) = m ((c : Thread nD τ).loc main_arg12) :=
  calc B3 m c (Proc.devRef .tc main_arg12)
    _ = B2 m c (Proc.devRef .tc main_arg12) := B3_of_ne m c main_arg12 (by decide)
    _ = B1 m c (Proc.devRef .tc main_arg12) := B2_of_ne m c main_arg12 (by decide)
    _ = m ((c : Thread nD τ).loc main_arg12) := V1_of m c main_arg12 (by decide)
theorem B3_main_arg13 (c : Dev nD) : B3 m c (Proc.devRef .tc main_arg13) = m ((c : Thread nD τ).loc main_arg13) :=
  calc B3 m c (Proc.devRef .tc main_arg13)
    _ = B2 m c (Proc.devRef .tc main_arg13) := B3_of_ne m c main_arg13 (by decide)
    _ = B1 m c (Proc.devRef .tc main_arg13) := B2_of_ne m c main_arg13 (by decide)
    _ = m ((c : Thread nD τ).loc main_arg13) := V1_of m c main_arg13 (by decide)
theorem B3_main_arg14 (c : Dev nD) : B3 m c (Proc.devRef .tc main_arg14) = m ((c : Thread nD τ).loc main_arg14) :=
  calc B3 m c (Proc.devRef .tc main_arg14)
    _ = B2 m c (Proc.devRef .tc main_arg14) := B3_of_ne m c main_arg14 (by decide)
    _ = B1 m c (Proc.devRef .tc main_arg14) := B2_of_ne m c main_arg14 (by decide)
    _ = m ((c : Thread nD τ).loc main_arg14) := V1_of m c main_arg14 (by decide)
theorem B3_main_arg15 (c : Dev nD) : B3 m c (Proc.devRef .tc main_arg15) = m ((c : Thread nD τ).loc main_arg15) :=
  calc B3 m c (Proc.devRef .tc main_arg15)
    _ = B2 m c (Proc.devRef .tc main_arg15) := B3_of_ne m c main_arg15 (by decide)
    _ = B1 m c (Proc.devRef .tc main_arg15) := B2_of_ne m c main_arg15 (by decide)
    _ = m ((c : Thread nD τ).loc main_arg15) := V1_of m c main_arg15 (by decide)
theorem B3_main_arg16 (c : Dev nD) : B3 m c (Proc.devRef .tc main_arg16) = m ((c : Thread nD τ).loc main_arg16) :=
  calc B3 m c (Proc.devRef .tc main_arg16)
    _ = B2 m c (Proc.devRef .tc main_arg16) := B3_of_ne m c main_arg16 (by decide)
    _ = B1 m c (Proc.devRef .tc main_arg16) := B2_of_ne m c main_arg16 (by decide)
    _ = m ((c : Thread nD τ).loc main_arg16) := V1_of m c main_arg16 (by decide)
theorem B3_main_arg17 (c : Dev nD) : B3 m c (Proc.devRef .tc main_arg17) = m ((c : Thread nD τ).loc main_arg17) :=
  calc B3 m c (Proc.devRef .tc main_arg17)
    _ = B2 m c (Proc.devRef .tc main_arg17) := B3_of_ne m c main_arg17 (by decide)
    _ = B1 m c (Proc.devRef .tc main_arg17) := B2_of_ne m c main_arg17 (by decide)
    _ = m ((c : Thread nD τ).loc main_arg17) := V1_of m c main_arg17 (by decide)
theorem B3_main_arg18 (c : Dev nD) : B3 m c (Proc.devRef .tc main_arg18) = m ((c : Thread nD τ).loc main_arg18) :=
  calc B3 m c (Proc.devRef .tc main_arg18)
    _ = B2 m c (Proc.devRef .tc main_arg18) := B3_of_ne m c main_arg18 (by decide)
    _ = B1 m c (Proc.devRef .tc main_arg18) := B2_of_ne m c main_arg18 (by decide)
    _ = m ((c : Thread nD τ).loc main_arg18) := V1_of m c main_arg18 (by decide)

/-! ## What the two calls find and leave -/

/-- The second call finds the first call's result array at what the first call's write-backs left. -/
theorem E2_main_v30 (c : Dev nD) : E2 m c main_v30 = (dat0 (E1 m) c).arrAt 3 cfg0.N := B2_arr m c 3
/-- The second call finds the old cell state as launched. -/
theorem E2_main_arg2 (c : Dev nD) : E2 m c main_arg2 = m ((c : Thread nD τ).loc main_arg2) :=
  (B2_of_ne m c main_arg2 (by decide)).trans (V1_of m c main_arg2 (by decide))
/-- The program's first result is what the second call's write-backs left in its first output array, -/
theorem B3_main_v31_0 (c : Dev nD) : B3 m c (Proc.devRef .tc main_v31_0) = (dat1 (E2 m) c).arrAt 2 cfg1.N := B3_arr m c 2
/-- and its second result what they left in its second. -/
theorem B3_main_v31_1 (c : Dev nD) : B3 m c (Proc.devRef .tc main_v31_1) = (dat1 (E2 m) c).arrAt 3 cfg1.N := B3_arr m c 3

/-! ## The proof data family and the thread state -/

abbrev adm : (p : Fin 2) → (pcfgs (F := F) p).Adm := fun p => (cfgs p).toPCfg_adm
/-- Each call's proof data at the contents it is entered from. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

set_option backward.isDefEq.respectTransparency.types false in
/-- The first pallas_call as a segment of @main: entered from every unscoped buffer at `B1`, left at `B2`; its
    arrays split out of the unscoped buffers and put back at what the write-backs leave; the generator register and the
    scoped buffers pass through the body's invariant; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1
          ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h1.trans (hin0 (E1 m) c)
  hout c := by
    have h1 : (Pipeline.ΦA spec0 c : sProp 𝕄) ⊢ iprop((∃ r, prngReg c r) ∗ Pipeline.ownSems0 (fun k : PEmpty => k.elim) c
          ∗ Pipeline.scopedRest (Pipeline.pin (pcfgs (F := F)) adm 0).spec c) := by
      rw [Pipeline.ownSems0_none]; unfold Pipeline.ΦA
      iintro ⟨Hr, Hp⟩
      isplitl [Hp]; · iexact Hp
      isplitr; · iempintro
      iexact Hr
    exact (hout0 (E1 m) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call as a segment of @main: entered from every unscoped buffer at `B2`, left at `B3`; its
    arrays split out of the unscoped buffers and put back at what the write-backs leave; the generator register and the
    scoped buffers pass through the body's invariant; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final memory holds every unscoped buffer at `B3`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨
    (h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c),
    (h c _ (mem_uc main_arg8 (by decide))).trans (B3_main_arg8 m c),
    (h c _ (mem_uc main_arg9 (by decide))).trans (B3_main_arg9 m c),
    (h c _ (mem_uc main_arg10 (by decide))).trans (B3_main_arg10 m c),
    (h c _ (mem_uc main_arg11 (by decide))).trans (B3_main_arg11 m c),
    (h c _ (mem_uc main_arg12 (by decide))).trans (B3_main_arg12 m c),
    (h c _ (mem_uc main_arg13 (by decide))).trans (B3_main_arg13 m c),
    (h c _ (mem_uc main_arg14 (by decide))).trans (B3_main_arg14 m c),
    (h c _ (mem_uc main_arg15 (by decide))).trans (B3_main_arg15 m c),
    (h c _ (mem_uc main_arg16 (by decide))).trans (B3_main_arg16 m c),
    (h c _ (mem_uc main_arg17 (by decide))).trans (B3_main_arg17 m c),
    (h c _ (mem_uc main_arg18 (by decide))).trans (B3_main_arg18 m c)⟩) (run_all m ρ)

end Cert.Kernel.Hand

end
-- ==== Proof.KI.R0.lean ====
import proofs.«177083_j81518479278547_1_alg».proof.Proof.Gen.KernelIdeal.Launch
import proofs.«177083_j81518479278547_1_alg».proof.Proof.Gen.KernelIdeal.Skeleton
import proofs.«177083_j81518479278547_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The two branch conditions and the output window's idle points, in closed form over the grid -/

/-- The first `scf.if`'s condition from the grid coordinates: the contracted axis' coordinate is 0. -/
abbrev condFirst (i : grid0.Coords) : Prop := (Scalar.cmpi .ne (Scalar.extui (Scalar.cmpi .eq (BitVec.ofNat 32 (i 2).val) 0#32)) 0#32) = 1#1
/-- It holds at the points ≡ 0 (mod 4): the contracted axis is innermost and has extent 4. -/
theorem hcondFirst : ∀ t : Fin cfg0.N, condFirst (grid0.coords t) ↔ t.val % 4 = 0 :=
  (by decide +kernel : ∀ t : Fin grid0.N, condFirst (grid0.coords t) ↔ t.val % 4 = 0)
/-- The second `scf.if`'s condition: the contracted axis' coordinate is 3. -/
abbrev condLast (i : grid0.Coords) : Prop := k0_cond2 i = 1#1
/-- It holds at the points ≡ 3 (mod 4). -/
theorem hcondLast : ∀ t : Fin cfg0.N, condLast (grid0.coords t) ↔ t.val % 4 = 3 :=
  (by decide +kernel : ∀ t : Fin grid0.N, condLast (grid0.coords t) ↔ t.val % 4 = 3)

/-- The three input windows are never idle. -/
theorem live0_0 : ∀ i, cfg0.idle 0 i = false := fun _ => rfl
theorem live0_1 : ∀ i, cfg0.idle 1 i = false := fun _ => rfl
theorem live0_2 : ∀ i, cfg0.idle 2 i = false := fun _ => rfl
/-- The output window is idle off the last step of a run along the contracted axis, -/
theorem idle0_3 : ∀ t : Fin cfg0.N, ¬ t.val % 4 = 3 → cfg0.idle 3 (grid0.coords t) = true :=
  (by decide +kernel : ∀ t : Fin grid0.N, ¬ t.val % 4 = 3 → cfg0.idle 3 (grid0.coords t) = true)
/-- live at it, -/
theorem live0_3 : ∀ t : Fin cfg0.N, t.val % 4 = 3 → cfg0.idle 3 (grid0.coords t) = false :=
  (by decide +kernel : ∀ t : Fin grid0.N, t.val % 4 = 3 → cfg0.idle 3 (grid0.coords t) = false)
/-- and not written back off it. -/
theorem noFlush0_3 (t : Fin cfg0.N) (h : ¬ t.val % 4 = 3) : (cfg0.win 3).flush t = false := by
  cases hf : (cfg0.win 3).flush t with
  | false => rfl
  | true => exact absurd ((flush0_3 t).mp hf) h

/-- The zero offsets of a whole-buffer access, as a constant function. -/
theorem hz2 : (![0, 0] : Fin 2 → Nat) = fun _ => 0 := funext fun a => by fin_cases a <;> rfl

/-- A store through the whole-shape rectangle at zero offsets, made LAST, leaves its payload, whatever the buffer held and whatever
    was stored before it. -/
theorem read_writes_whole {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩), View.canon_cons_unit_zero h inb]

/-! ## The body on whole staging memrefs, in its three control cases -/

set_option maxHeartbeats 1000000 in
/-- FIRST step of a run along the contracted axis (reset taken, output store not taken): the accumulator, whatever it held,
    ends at the zero block plus the product of the two input blocks; the output buffer is handed back untouched. -/
theorem runFirst (c : Dev nD) (i : grid0.Coords)
    (arg3 : Memref sig .tc .vmem S1024x1024 .bf16) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (arg7 : Memref sig .tc .vmem S1024x2048 .f32) (harg7 : arg7.IsWhole) (hc0 : condFirst i) (hc1 : ¬condLast i)
    (x0 : Vec F S1024x1024 .bf16) (x1 : Vec F S1024x2048 .bf16) (x2 : Vec F S1x2048 .f32) (xo : Vec F S1024x2048 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k0_pay2 (k0_pay1 (F := F)) x0 x1)) -∗ K ⟨⟩))
      ⊢ wp frame (wpE (defs₀ (F := F)) Variants.none c none) E (cc0__matmul_kernel i arg3 harg3 arg4 harg4 arg5 harg5 arg6 harg6 arg7 harg7) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  -- the last store covers the accumulator: its payload over the reset's zero block, read back
  sl_unfold_words
  rw [read_writes_whole _ _ hz2, View.readCov_unit_zero (S := S1024x2048) _ hz2]
  simp only [View.readAt_eq_ld, harg3.read_unread, harg4.read_unread, View.ld_unit_zero (S := S1024x1024) hz2, View.ld_unit_zero (S := S1024x2048) hz2]

set_option maxHeartbeats 1000000 in
/-- A MIDDLE step (neither branch taken): the accumulator holding `xs` ends at `xs` plus the product; the output buffer is
    handed back untouched. -/
theorem runMid (c : Dev nD) (i : grid0.Coords)
    (arg3 : Memref sig .tc .vmem S1024x1024 .bf16) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (arg7 : Memref sig .tc .vmem S1024x2048 .f32) (harg7 : arg7.IsWhole) (hc0 : ¬condFirst i) (hc1 : ¬condLast i)
    (x0 : Vec F S1024x1024 .bf16) (x1 : Vec F S1024x2048 .bf16) (x2 : Vec F S1x2048 .f32) (xo : Vec F S1024x2048 .f32) (xs : Vec F S1024x2048 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k0_pay2 xs x0 x1)) -∗ K ⟨⟩))
      ⊢ wp frame (wpE (defs₀ (F := F)) Variants.none c none) E (cc0__matmul_kernel i arg3 harg3 arg4 harg4 arg5 harg5 arg6 harg6 arg7 harg7) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg6.eq_unread hf3
  obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS
  ipureintro
  sl_unfold_words
  rw [read_writes_whole _ _ hz2]
  simp only [View.readAt_eq_ld, harg3.read_unread, harg4.read_unread, harg7.read_unread, View.ld_unit_zero (S := S1024x1024) hz2, View.ld_unit_zero (S := S1024x2048) hz2]

set_option maxHeartbeats 1000000 in
/-- LAST step (reset not taken, output store taken): the accumulator holding `xs` ends at `xs` plus the product, and the output
    buffer, whatever it held, at that sum plus the bias row. -/
theorem runLast (c : Dev nD) (i : grid0.Coords)
    (arg3 : Memref sig .tc .vmem S1024x1024 .bf16) (harg3 : arg3.IsWhole) (arg4 : Memref sig .tc .vmem S1024x2048 .bf16) (harg4 : arg4.IsWhole)
    (arg5 : Memref sig .tc .vmem S1x2048 .f32) (harg5 : arg5.IsWhole) (arg6 : Memref sig .tc .vmem S1024x2048 .f32) (harg6 : arg6.IsWhole)
    (arg7 : Memref sig .tc .vmem S1024x2048 .f32) (harg7 : arg7.IsWhole) (hc0 : ¬condFirst i) (hc1 : condLast i)
    (x0 : Vec F S1024x1024 .bf16) (x1 : Vec F S1024x2048 .bf16) (x2 : Vec F S1x2048 .f32) (xs : Vec F S1024x2048 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k0_pay3 (k0_pay2 xs x0 x1) x2) ∗ owns (c : Thread nD τ) arg7 fullShare (k0_pay2 xs x0 x1)) -∗ K ⟨⟩))
      ⊢ wp frame (wpE (defs₀ (F := F)) Variants.none c none) E (cc0__matmul_kernel i arg3 harg3 arg4 harg4 arg5 harg5 arg6 harg6 arg7 harg7) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2
  obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    -- the output's one store covers it; its payload reads the accumulator just stored and the bias row
    sl_unfold_words
    rw [read_writes_whole _ _ hz2, View.readCov_unit_zero (S := S1024x2048) _ hz2]
    simp only [View.readAt_eq_ld, harg3.read_unread, harg4.read_unread, harg5.read_unread, harg7.read_unread, View.ld_unit_zero (S := S1024x1024) hz2, View.ld_unit_zero (S := S1024x2048) hz2, View.ld_unit_zero (S := S1x2048) hz2]
  iexists _; isplitr
  swap; · iexact HS
  ipureintro
  sl_unfold_words
  rw [read_writes_whole _ _ hz2]
  simp only [View.readAt_eq_ld, harg3.read_unread, harg4.read_unread, harg7.read_unread, View.ld_unit_zero (S := S1024x1024) hz2, View.ld_unit_zero (S := S1024x2048) hz2]

variable (V : (c : Dev nD) → (b : Ref sig .tc) → Buf (Elt F) ((c : Thread nD τ).loc b))

/-! # The first pallas_call: the tiled matrix product with a carried accumulator -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after grid point `n`: at the first step of a run along the contracted axis (`n % 4 = 0`) the
    zero block plus that step's product, afterwards the previous accumulator plus the step's product. -/
def acc0 (c : Dev nD) : (n : ℕ) → n < cfg0.N → Vec F S1024x2048 .f32
  | 0, h => k0_pay2 (k0_pay1 (F := F)) (iblk0 V c 0 ⟨0, h⟩) (iblk0 V c 1 ⟨0, h⟩)
  | n + 1, h =>
    if (n + 1) % 4 = 0 then k0_pay2 (k0_pay1 (F := F)) (iblk0 V c 0 ⟨n + 1, h⟩) (iblk0 V c 1 ⟨n + 1, h⟩)
    else k0_pay2 (acc0 c n (Nat.lt_of_succ_lt h)) (iblk0 V c 0 ⟨n + 1, h⟩) (iblk0 V c 1 ⟨n + 1, h⟩)

/-- What the last step of a run along the contracted axis stores into the output block: the accumulator plus the bias row. -/
def outv0 (c : Dev nD) (t : Fin cfg0.N) : Vec F S1024x2048 .f32 :=
  k0_pay3 (acc0 V c t.val t.isLt) (iblk0 V c 2 t)

/-- The scratch accumulator as a memref. -/
abbrev scM0 : Memref sig .tc .vmem S1024x2048 .f32 := Memref.whole cc0_scratch0

/-- The scoped buffers of the core other than this call's staging buffers and its accumulator (the second call's
    staging buffers), each whole at some contents. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The invariant before position `n`: before the first point the scoped buffers at anything; afterwards the
    accumulator at `acc0` of the point before, the other scoped buffers at anything. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ restS0 (F := F) c ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outv0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outv0 V c t := by dsimp only [dat0]

/-! ## The staging memrefs at a point, and the invariant's two forms -/

/-- Each window's current staging memref at point `t`, as the pipeline passes it to the body, with its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .f32 := win0_3.stage (cfg0.slots t 3)
abbrev hs0_3 (t : Fin cfg0.N) : (ms0_3 t).IsWhole := hstage0_3 ((cfg0.slots t 3).cast nbuf0_3)

/-- What the launch hands the region, with the accumulator as a memref owned at some contents and the second call's staging
    buffers apart. -/
theorem PhiA0_eq (c : Dev nD) :
    (Pipeline.ΦA spec0 c : sProp 𝕄)
      = iprop(((∃ d, owns (c : Thread nD τ) scM0 fullShare d) ∗ restS0 (F := F) c) ∗ (∃ r, prngReg c r)) := by
  unfold Pipeline.ΦA restS0; rw [scopedRest0_eq]; simp only [scM0, owns_whole]; try rfl

theorem PhiS0_zero (c : Dev nD) (n : ℕ) (h : n ≤ cfg0.N) (hz : n = 0) : PhiS0 V c n h = Pipeline.ΦA spec0 c := by
  subst hz; rfl

/-- After point `n`: the accumulator at that point's running sum. -/
theorem PhiS0_succ (c : Dev nD) (n : ℕ) (hn : n < cfg0.N) :
    PhiS0 V c (n + 1) hn = iprop(owns (c : Thread nD τ) scM0 fullShare (acc0 V c n hn) ∗ restS0 (F := F) c ∗ (∃ r, prngReg c r)) := rfl

/-- Before a point that is not the first: the accumulator at what the point before left. -/
theorem PhiS0_pos (c : Dev nD) (n : ℕ) (h : n ≤ cfg0.N) (hz : n ≠ 0) :
    PhiS0 V c n h = iprop(owns (c : Thread nD τ) scM0 fullShare (acc0 V c (n - 1) (by omega)) ∗ restS0 (F := F) c ∗ (∃ r, prngReg c r)) := by
  cases n with
  | zero => exact absurd rfl hz
  | succ n => rfl

/-- The invariant at a point's start, restated at `t.val`. -/
theorem Phi0_castSucc (c : Dev nD) (t : Fin cfg0.N) :
    (dat0 V c).Φ t.castSucc = PhiS0 V c t.val (Nat.le_of_lt t.isLt) := by
  dsimp only [dat0]; simp only [Fin.coe_castSucc]

/-! ## The running sum, one step unfolded -/

/-- At the first step of a run along the contracted axis the running sum starts afresh from the zero block. -/
theorem acc0_first (c : Dev nD) (t : Fin cfg0.N) (h0 : t.val % 4 = 0) :
    acc0 V c t.val t.isLt = k0_pay2 (k0_pay1 (F := F)) (iblk0 V c 0 t) (iblk0 V c 1 t) := by
  obtain ⟨n, hn⟩ := t
  cases n with
  | zero => rfl
  | succ n => exact if_pos h0

/-- At every other step it adds the step's product to what the point before left. -/
theorem acc0_step (c : Dev nD) (t : Fin cfg0.N) (h0 : ¬t.val % 4 = 0) :
    acc0 V c t.val t.isLt = k0_pay2 (acc0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h0
  | succ n => exact if_neg h0

/-! ## What the body finds in the input windows' buffers -/

/-- Each input's current staging buffer holds its block at every point, fetched there or not: the left operand and the right
    operand are fetched at every point; the bias row only where a run along the contracted axis starts, and its block index
    does not move in between. -/
theorem before0_0 (c : Dev nD) (t : Fin cfg0.N) (d) : (dat0 V c).before 0 t d = iblk0 V c 0 t :=
  ((dat0 V c).before_in_eq_fetched 0 rfl live0_0 (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl live0_1 (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl live0_2 (fun _ _ _ => rfl)
    (fun t => by rw [after0_2]; unfold Dat.blockOf iblk0; rw [A_eq0]; try rfl) t d).trans
    (by unfold Dat.fetched Dat.blockOf iblk0; rw [A_eq0]; try rfl)

/-- The body leaves each input's buffer at its block (the windows are never idle). -/
theorem leaves0_0 (c : Dev nD) (t : Fin cfg0.N) :
    (dat0 V c).leavesExact 0 t = owns (c : Thread nD τ) (ms0_0 t) fullShare (iblk0 V c 0 t) := by
  unfold Dat.leavesExact; rw [live0_0, after0_0]
theorem leaves0_1 (c : Dev nD) (t : Fin cfg0.N) :
    (dat0 V c).leavesExact 1 t = owns (c : Thread nD τ) (ms0_1 t) fullShare (iblk0 V c 1 t) := by
  unfold Dat.leavesExact; rw [live0_1, after0_1]
theorem leaves0_2 (c : Dev nD) (t : Fin cfg0.N) :
    (dat0 V c).leavesExact 2 t = owns (c : Thread nD τ) (ms0_2 t) fullShare (iblk0 V c 2 t) := by
  unfold Dat.leavesExact; rw [live0_2, after0_2]
/-- At the last step of a run along the contracted axis the output's buffer is left at the sum plus the bias row. -/
theorem leaves0_3 (c : Dev nD) (t : Fin cfg0.N) (h3 : t.val % 4 = 3) :
    (dat0 V c).leavesExact 3 t = owns (c : Thread nD τ) (ms0_3 t) fullShare (outv0 V c t) := by
  unfold Dat.leavesExact; rw [live0_3 t h3, after0_3]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks (`before0_W`); `t.val % 4` says which control case the point is
    in. At the first step of a run the accumulator (at the previous run's last sum, or at anything before the first point) is
    reset and ends at `acc0`'s fresh start; at the other steps it holds what the point before left and ends one product
    further. Off the last step the output's buffer is idle and handed back as found; at the last step it ends at the sum plus
    the bias row. The other scoped buffers and the generator register pass through; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 64 := lt_of_lt_of_eq t.isLt (show cfg0.N = 64 from N_0)
  by_cases h0 : t.val % 4 = 0
  · -- first step of a run: reset, then accumulate
    have h3 : ¬t.val % 4 = 3 := by omega
    rw [Dat.leavesExact_idle (dat0 V c) 3 t (idle0_3 t h3) (noFlush0_3 t h3), acc0_first V c t h0]
    by_cases hz : t.val = 0
    · rw [Phi0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩⟩
      iapply (runFirst c (grid0.coords t) (ms0_0 t) (hs0_0 t) (ms0_1 t) (hs0_1 t) (ms0_2 t) (hs0_2 t) (ms0_3 t) (hs0_3 t) scM0 (Memref.isWhole_whole _)
        ((hcondFirst t).mpr h0) (fun h => h3 ((hcondLast t).mp h)) (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
    · rw [Phi0_castSucc V c t, PhiS0_pos V c _ _ hz]
      iintro ⟨⟨HS, HR, Hg⟩, Ho, ⟨%d0, H0⟩, ⟨%d1, H1⟩, ⟨%d2, H2⟩, ⟨%d3, H3⟩⟩
      iapply (runFirst c (grid0.coords t) (ms0_0 t) (hs0_0 t) (ms0_1 t) (hs0_1 t) (ms0_2 t) (hs0_2 t) (ms0_3 t) (hs0_3 t) scM0 (Memref.isWhole_whole _)
        ((hcondFirst t).mpr h0) (fun h => h3 ((hcondLast t).mp h)) (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    rw [Phi0_castSucc V c t, PhiS0_pos V c _ _ hz, acc0_step V c t h0]
    by_cases h3 : t.val % 4 = 3
    · -- last step of a run: accumulate, then the output is the sum plus the bias row
      rw [leaves0_3 V c t h3]
      unfold outv0
      rw [acc0_step V c t h0]
      iintro ⟨⟨HS, HR, Hg⟩, Ho, ⟨%d0, H0⟩, ⟨%d1, H1⟩, ⟨%d2, H2⟩, ⟨%d3, H3⟩⟩
      iapply (runLast c (grid0.coords t) (ms0_0 t) (hs0_0 t) (ms0_1 t) (hs0_1 t) (ms0_2 t) (hs0_2 t) (ms0_3 t) (hs0_3 t) scM0 (Memref.isWhole_whole _)
        (fun h => h0 ((hcondFirst t).mp h)) ((hcondLast t).mpr h3) (iblk0 V c 0 t) (iblk0 V c 1 t) (iblk0 V c 2 t)
        (acc0 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · -- a middle step: accumulate only
      rw [Dat.leavesExact_idle (dat0 V c) 3 t (idle0_3 t h3) (noFlush0_3 t h3)]
      iintro ⟨⟨HS, HR, Hg⟩, Ho, ⟨%d0, H0⟩, ⟨%d1, H1⟩, ⟨%d2, H2⟩, ⟨%d3, H3⟩⟩
      iapply (runMid c (grid0.coords t) (ms0_0 t) (hs0_0 t) (ms0_1 t) (hs0_1 t) (ms0_2 t) (hs0_2 t) (ms0_3 t) (hs0_3 t) scM0 (Memref.isWhole_whole _)
        (fun h => h0 ((hcondFirst t).mp h)) (fun h => h3 ((hcondLast t).mp h)) (iblk0 V c 0 t) (iblk0 V c 1 t) (iblk0 V c 2 t) ((dat0 V c).before 3 t d3)
        (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's form back: the accumulator's running sum is forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS, HR, Hg⟩
  isplitl [HS HR]
  · isplitl [HS]; · iexists _; iexact HS
    iexact HR
  iexact Hg

/-- The same after the last of the 64 points. -/
theorem hout0 (c : Dev nD) : (dat0 V c).Φ (Fin.last cfg0.N) ⊢ Pipeline.ΦA spec0 c :=
  Phi0_out V c _ (by rw [Fin.val_last]; have : cfg0.N = 64 := N_0; omega)

end Cert.KernelIdeal.Hand

end
-- ==== Proof.KI.R1.lean ====
import proofs.«177083_j81518479278547_1_alg».proof.Proof.Gen.KernelIdeal.Launch
import proofs.«177083_j81518479278547_1_alg».proof.Proof.Gen.KernelIdeal.Skeleton
import proofs.«177083_j81518479278547_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second pallas_call: the gates combined row block by row block -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (iblk1 V c 0 t) (iblk1 V c 1 t)
    | ⟨3, _⟩ => k1_pay2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (iblk1 V c 0 t) (iblk1 V c 1 t) := by dsimp only [dat1]
theorem after1_3 (c : Dev nD) (t : Fin cfg1.N) : (dat1 V c).after 3 t = k1_pay2 (iblk1 V c 0 t) (iblk1 V c 1 t) := by dsimp only [dat1]

/-! ## The body's accesses: every load and store goes through the whole block -/

/-- The zero offsets, as the printed rectangles spell them. -/
theorem zeroOffsets : (![0, 0] : Fin 2 → Nat) = fun _ => 0 := funext fun a => by fin_cases a <;> rfl

/-- The whole state block (256 rows of cell state, or of either output). -/
abbrev stateRect : Rect S256x2048 := Rect.unit (s := S256x2048) ![0, 0] S256x2048.size inb_S256x2048_S256x2048_0_0

/-- One store through the whole state block covers it. -/
theorem stateCover (p0 : Vec F S256x2048 .f32) (y : S256x2048.Idx) :
    ∃ pc ∈ ([⟨stateRect, p0⟩] : List (View.Piece (Elt F) S256x2048 .f32)), y ∈ pc.1.set :=
  ⟨_, List.mem_singleton_self _, View.mem_set_unit_zero zeroOffsets inb_S256x2048_S256x2048_0_0 y⟩

/-- What ONE whole-block store leaves in a state-shaped buffer, whatever it held, reads back as the store's payload. -/
theorem read_stateStore {κ : Kind} {sp : Space} (v : View sig κ sp S256x2048 .f32) (f : v.ty.Contents (Elt F))
    (p0 : Vec F S256x2048 .f32) :
    v.read (Elt F) (v.writes (Elt F) f [⟨stateRect, p0⟩]) = p0 := by
  rw [View.read_writes_eq_canon _ _ _ (stateCover p0), View.canon_unit_zero zeroOffsets]

/-! ## The body's triple -/

set_option maxHeartbeats 1000000 in
/-- The gate combine on whole staging memrefs: the gate block at `x0`, the old cell state at `x1`, the two outputs'
    memrefs at anything. It runs to the continuation holding the inputs as they were, the new hidden state
    `o ⊙ tanh c'` (`k1_pay3`) in the first output and the new cell state `c' = f ⊙ c + i ⊙ g` (`k1_pay2`) in the
    second. Each output is loaded once before its store, a value nothing reads. -/
theorem sound_kernel1 (c : Dev nD) (E : Set ℕ) (i : grid1.Coords)
    (arg1 : Memref sig .tc .vmem S256x8192 .f32) (harg1 : arg1.IsWhole)
    (arg2 : Memref sig .tc .vmem S256x2048 .f32) (harg2 : arg2.IsWhole)
    (arg3 : Memref sig .tc .vmem S256x2048 .f32) (harg3 : arg3.IsWhole)
    (arg4 : Memref sig .tc .vmem S256x2048 .f32) (harg4 : arg4.IsWhole)
    (x0 : Vec F S256x8192 .f32) (x1 : Vec F S256x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay3 x0 x1) ∗ owns (c : Thread nD τ) arg4 fullShare (k1_pay2 x0 x1)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [read_stateStore]
    simp only [View.readAt_eq_ld, View.ld_unit_zero (S := S256x8192) zeroOffsets, View.ld_unit_zero (S := S256x2048) zeroOffsets]
  iexists _; isplitr
  swap; · iexact H3
  ipureintro
  rw [read_stateStore]
  simp only [View.readAt_eq_ld, View.ld_unit_zero (S := S256x8192) zeroOffsets, View.ld_unit_zero (S := S256x2048) zeroOffsets]

/-! ## What the body finds in its input windows -/

/-- The gate window's current staging buffer holds its block at every point: it is fetched at every point. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- So does the old cell state's. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`, the four windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input windows' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
import proofs.«177083_j81518479278547_1_alg».proof.Proof.Gen.KernelIdeal.Launch
import proofs.«177083_j81518479278547_1_alg».proof.Proof.Gen.KernelIdeal.Skeleton
import proofs.«177083_j81518479278547_1_alg».proof.Proof.Gen.KernelIdeal.Points
import proofs.«177083_j81518479278547_1_alg».proof.Proof.Gen.KernelIdeal.Regions
import proofs.«177083_j81518479278547_1_alg».proof.Proof.KI.R0
import proofs.«177083_j81518479278547_1_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! # The whole program: the host operations, then the two pallas_calls

The unscoped buffers' contents at the four boundaries of @main: at launch (`B0`), after the host operations that build
`[x | h]`, the stacked weights and the bias row (`B1`), after the matrix product (`B2`: only its result array
changed, to what its write-backs leave), after the gate combine (`B3`: only its two result arrays changed). -/

abbrev B0 : Dev nD → Valuation τ sig (Elt F) := fun c b => m (c, b)
abbrev B1 : Dev nD → Valuation τ sig (Elt F) := fun c => StableHlo.after hostOps0 (B0 m c)
/-- The same read at the TensorCore's references: what the first call's proof data take. -/
abbrev E1 : (c : Dev nD) → (b : Ref sig .tc) → Buf (Elt F) ((c : Thread nD τ).loc b) := fun c b => B1 m c b
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ## The arguments end as launched -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := B2_of_ne m c main_arg0 (by decide)
    _ = m ((c : Thread nD τ).loc main_arg0) := V1_of m c main_arg0 (by decide)
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = m ((c : Thread nD τ).loc main_arg1) := V1_of m c main_arg1 (by decide)
theorem B3_main_arg2 (c : Dev nD) : B3 m c (Proc.devRef .tc main_arg2) = m ((c : Thread nD τ).loc main_arg2) :=
  calc B3 m c (Proc.devRef .tc main_arg2)
    _ = B2 m c (Proc.devRef .tc main_arg2) := (B3_arr m c 1).trans (((dat1 (E2 m) c).arrAt_in 1 rfl _).trans (A_eq1 (E2 m) c 1))
    _ = B1 m c (Proc.devRef .tc main_arg2) := B2_of_ne m c main_arg2 (by decide)
    _ = m ((c : Thread nD τ).loc main_arg2) := V1_of m c main_arg2 (by decide)
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = m ((c : Thread nD τ).loc main_arg3) := V1_of m c main_arg3 (by decide)
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = m ((c : Thread nD τ).loc main_arg4) := V1_of m c main_arg4 (by decide)
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = m ((c : Thread nD τ).loc main_arg5) := V1_of m c main_arg5 (by decide)
theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = B1 m c (Proc.devRef .tc main_arg6) := B2_of_ne m c main_arg6 (by decide)
    _ = m ((c : Thread nD τ).loc main_arg6) := V1_of m c main_arg6 (by decide)
theorem B3_main_arg7 (c : Dev nD) : B3 m c (Proc.devRef .tc main_arg7) = m ((c : Thread nD τ).loc main_arg7) :=
  calc B3 m c (Proc.devRef .tc main_arg7)
    _ = B2 m c (Proc.devRef .tc main_arg7) := B3_of_ne m c main_arg7 (by decide)
    _ = B1 m c (Proc.devRef .tc main_arg7) := B2_of_ne m c main_arg7 (by decide)
    _ = m ((c : Thread nD τ).loc main_arg7) := V1_of m c main_arg7 (by decide)
theorem B3_main_arg8 (c : Dev nD) : B3 m c (Proc.devRef .tc main_arg8) = m ((c : Thread nD τ).loc main_arg8) :=
  calc B3 m c (Proc.devRef .tc main_arg8)
    _ = B2 m c (Proc.devRef .tc main_arg8) := B3_of_ne m c main_arg8 (by decide)
    _ = B1 m c (Proc.devRef .tc main_arg8) := B2_of_ne m c main_arg8 (by decide)
    _ = m ((c : Thread nD τ).loc main_arg8) := V1_of m c main_arg8 (by decide)
theorem B3_main_arg9 (c : Dev nD) : B3 m c (Proc.devRef .tc main_arg9) = m ((c : Thread nD τ).loc main_arg9) :=
  calc B3 m c (Proc.devRef .tc main_arg9)
    _ = B2 m c (Proc.devRef .tc main_arg9) := B3_of_ne m c main_arg9 (by decide)
    _ = B1 m c (Proc.devRef .tc main_arg9) := B2_of_ne m c main_arg9 (by decide)
    _ = m ((c : Thread nD τ).loc main_arg9) := V1_of m c main_arg9 (by decide)
theorem B3_main_arg10 (c : Dev nD) : B3 m c (Proc.devRef .tc main_arg10) = m ((c : Thread nD τ).loc main_arg10) :=
  calc B3 m c (Proc.devRef .tc main_arg10)
    _ = B2 m c (Proc.devRef .tc main_arg10) := B3_of_ne m c main_arg10 (by decide)
    _ = B1 m c (Proc.devRef .tc main_arg10) := B2_of_ne m c main_arg10 (by decide)
    _ = m ((c : Thread nD τ).loc main_arg10) := V1_of m c main_arg10 (by decide)
theorem B3_main_arg11 (c : Dev nD) : B3 m c (Proc.devRef .tc main_arg11) = m ((c : Thread nD τ).loc main_arg11) :=
  calc B3 m c (Proc.devRef .tc main_arg11)
    _ = B2 m c (Proc.devRef .tc main_arg11) := B3_of_ne m c main_arg11 (by decide)
    _ = B1 m c (Proc.devRef .tc main_arg11) := B2_of_ne m c main_arg11 (by decide)
    _ = m ((c : Thread nD τ).loc main_arg11) := V1_of m c main_arg11 (by decide)
theorem B3_main_arg12 (c : Dev nD) : B3 m c (Proc.devRef .tc main_arg12) = m ((c : Thread nD τ).loc main_arg12) :=
  calc B3 m c (Proc.devRef .tc main_arg12)
    _ = B2 m c (Proc.devRef .tc main_arg12) := B3_of_ne m c main_arg12 (by decide)
    _ = B1 m c (Proc.devRef .tc main_arg12) := B2_of_ne m c main_arg12 (by decide)
    _ = m ((c : Thread nD τ).loc main_arg12) := V1_of m c main_arg12 (by decide)
theorem B3_main_arg13 (c : Dev nD) : B3 m c (Proc.devRef .tc main_arg13) = m ((c : Thread nD τ).loc main_arg13) :=
  calc B3 m c (Proc.devRef .tc main_arg13)
    _ = B2 m c (Proc.devRef .tc main_arg13) := B3_of_ne m c main_arg13 (by decide)
    _ = B1 m c (Proc.devRef .tc main_arg13) := B2_of_ne m c main_arg13 (by decide)
    _ = m ((c : Thread nD τ).loc main_arg13) := V1_of m c main_arg13 (by decide)
theorem B3_main_arg14 (c : Dev nD) : B3 m c (Proc.devRef .tc main_arg14) = m ((c : Thread nD τ).loc main_arg14) :=
  calc B3 m c (Proc.devRef .tc main_arg14)
    _ = B2 m c (Proc.devRef .tc main_arg14) := B3_of_ne m c main_arg14 (by decide)
    _ = B1 m c (Proc.devRef .tc main_arg14) := B2_of_ne m c main_arg14 (by decide)
    _ = m ((c : Thread nD τ).loc main_arg14) := V1_of m c main_arg14 (by decide)
theorem B3_main_arg15 (c : Dev nD) : B3 m c (Proc.devRef .tc main_arg15) = m ((c : Thread nD τ).loc main_arg15) :=
  calc B3 m c (Proc.devRef .tc main_arg15)
    _ = B2 m c (Proc.devRef .tc main_arg15) := B3_of_ne m c main_arg15 (by decide)
    _ = B1 m c (Proc.devRef .tc main_arg15) := B2_of_ne m c main_arg15 (by decide)
    _ = m ((c : Thread nD τ).loc main_arg15) := V1_of m c main_arg15 (by decide)
theorem B3_main_arg16 (c : Dev nD) : B3 m c (Proc.devRef .tc main_arg16) = m ((c : Thread nD τ).loc main_arg16) :=
  calc B3 m c (Proc.devRef .tc main_arg16)
    _ = B2 m c (Proc.devRef .tc main_arg16) := B3_of_ne m c main_arg16 (by decide)
    _ = B1 m c (Proc.devRef .tc main_arg16) := B2_of_ne m c main_arg16 (by decide)
    _ = m ((c : Thread nD τ).loc main_arg16) := V1_of m c main_arg16 (by decide)
theorem B3_main_arg17 (c : Dev nD) : B3 m c (Proc.devRef .tc main_arg17) = m ((c : Thread nD τ).loc main_arg17) :=
  calc B3 m c (Proc.devRef .tc main_arg17)
    _ = B2 m c (Proc.devRef .tc main_arg17) := B3_of_ne m c main_arg17 (by decide)
    _ = B1 m c (Proc.devRef .tc main_arg17) := B2_of_ne m c main_arg17 (by decide)
    _ = m ((c : Thread nD τ).loc main_arg17) := V1_of m c main_arg17 (by decide)
theorem B3_main_arg18 (c : Dev nD) : B3 m c (Proc.devRef .tc main_arg18) = m ((c : Thread nD τ).loc main_arg18) :=
  calc B3 m c (Proc.devRef .tc main_arg18)
    _ = B2 m c (Proc.devRef .tc main_arg18) := B3_of_ne m c main_arg18 (by decide)
    _ = B1 m c (Proc.devRef .tc main_arg18) := B2_of_ne m c main_arg18 (by decide)
    _ = m ((c : Thread nD τ).loc main_arg18) := V1_of m c main_arg18 (by decide)

/-! ## What the two calls find and leave -/

/-- The second call finds the first call's result array at what the first call's write-backs left. -/
theorem E2_main_v30 (c : Dev nD) : E2 m c main_v30 = (dat0 (E1 m) c).arrAt 3 cfg0.N := B2_arr m c 3
/-- The second call finds the old cell state as launched. -/
theorem E2_main_arg2 (c : Dev nD) : E2 m c main_arg2 = m ((c : Thread nD τ).loc main_arg2) :=
  (B2_of_ne m c main_arg2 (by decide)).trans (V1_of m c main_arg2 (by decide))
/-- The program's first result is what the second call's write-backs left in its first output array, -/
theorem B3_main_v31_0 (c : Dev nD) : B3 m c (Proc.devRef .tc main_v31_0) = (dat1 (E2 m) c).arrAt 2 cfg1.N := B3_arr m c 2
/-- and its second result what they left in its second. -/
theorem B3_main_v31_1 (c : Dev nD) : B3 m c (Proc.devRef .tc main_v31_1) = (dat1 (E2 m) c).arrAt 3 cfg1.N := B3_arr m c 3

/-! ## The proof data family and the thread state -/

abbrev adm : (p : Fin 2) → (pcfgs (F := F) p).Adm := fun p => (cfgs p).toPCfg_adm
/-- Each call's proof data at the contents it is entered from. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

set_option backward.isDefEq.respectTransparency.types false in
/-- The first pallas_call as a segment of @main: entered from every unscoped buffer at `B1`, left at `B2`; its
    arrays split out of the unscoped buffers and put back at what the write-backs leave; the generator register and the
    scoped buffers pass through the body's invariant; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1
          ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h1.trans (hin0 (E1 m) c)
  hout c := by
    have h1 : (Pipeline.ΦA spec0 c : sProp 𝕄) ⊢ iprop((∃ r, prngReg c r) ∗ Pipeline.ownSems0 (fun k : PEmpty => k.elim) c
          ∗ Pipeline.scopedRest (Pipeline.pin (pcfgs (F := F)) adm 0).spec c) := by
      rw [Pipeline.ownSems0_none]; unfold Pipeline.ΦA
      iintro ⟨Hr, Hp⟩
      isplitl [Hp]; · iexact Hp
      isplitr; · iempintro
      iexact Hr
    exact (hout0 (E1 m) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call as a segment of @main: entered from every unscoped buffer at `B2`, left at `B3`; its
    arrays split out of the unscoped buffers and put back at what the write-backs leave; the generator register and the
    scoped buffers pass through the body's invariant; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters every weakly fair execution of @main terminates, nothing faulting, and every
    final memory holds every unscoped buffer at `B3`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨
    (h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c),
    (h c _ (mem_uc main_arg8 (by decide))).trans (B3_main_arg8 m c),
    (h c _ (mem_uc main_arg9 (by decide))).trans (B3_main_arg9 m c),
    (h c _ (mem_uc main_arg10 (by decide))).trans (B3_main_arg10 m c),
    (h c _ (mem_uc main_arg11 (by decide))).trans (B3_main_arg11 m c),
    (h c _ (mem_uc main_arg12 (by decide))).trans (B3_main_arg12 m c),
    (h c _ (mem_uc main_arg13 (by decide))).trans (B3_main_arg13 m c),
    (h c _ (mem_uc main_arg14 (by decide))).trans (B3_main_arg14 m c),
    (h c _ (mem_uc main_arg15 (by decide))).trans (B3_main_arg15 m c),
    (h c _ (mem_uc main_arg16 (by decide))).trans (B3_main_arg16 m c),
    (h c _ (mem_uc main_arg17 (by decide))).trans (B3_main_arg17 m c),
    (h c _ (mem_uc main_arg18 (by decide))).trans (B3_main_arg18 m c)⟩) (run_all m ρ)

end Cert.KernelIdeal.Hand

end
-- ==== Proof.Spec.lean ====
import Idealize.ShloMosaic.PureOps.Ideal
import Idealize.ShloMosaic.Lib.ValueIdx

/-!
# The LSTM cell as functions of whole arrays, over the extended reals

Both programs compute, for a batch row `r` and a hidden unit `n`, the four gate pre-activations
`x[r,:]·Wx_g[n,:] + bx_g[n] + h[r,:]·Wh_g[n,:] + bh_g[n]` (g = input, forget, cell, output), then
`c' = σ(f)·c + σ(i)·tanh(g)` and `h' = σ(o)·tanh(c')`. The kernel computes all four at once as one product of the
row-concatenation `[x | h]` with the stacked, transposed weights, summed tile by tile along the contracted axis into a
zero accumulator, the two biases added to each other first; the reference computes each linear map by itself.
-/

noncomputable section

namespace Cert.Spec

open Idealize.ShloMosaic Idealize.ShloMosaic.ValueIdx
open scoped BigOperators

/-- A matrix of extended reals. -/
abbrev A2 (n0 n1 : Nat) : Type := (⟨2, ![n0, n1]⟩ : Shape).Idx → EReal
/-- A vector of extended reals. -/
abbrev A1 (n : Nat) : Type := (⟨1, ![n]⟩ : Shape).Idx → EReal

/-- The row of a matrix index. -/
def row {n0 n1 : Nat} (i : (⟨2, ![n0, n1]⟩ : Shape).Idx) : Fin n0 := ⟨(i 0).val, idx2_lt0 i⟩
/-- The column of a matrix index. -/
def col {n0 n1 : Nat} (i : (⟨2, ![n0, n1]⟩ : Shape).Idx) : Fin n1 := ⟨(i 1).val, idx2_lt1 i⟩

/-! ## The kernel's side -/

/-- The contribution of the `k`-th tile of 1024 along the contracted axis to entry `(r, n)` of `a · b`. -/
def tileDot (a : A2 4096 4096) (b : A2 4096 8192) (k : Fin 4) (r : Fin 4096) (n : Fin 8192) : EReal :=
  ∑ kk : Fin 1024, a (ix2 r ⟨1024 * k.val + kk.val, by omega⟩) * b (ix2 ⟨1024 * k.val + kk.val, by omega⟩ n)

/-- The fused pre-activation: zero, plus the four tiles in order, plus the bias row. -/
def preact (a : A2 4096 4096) (b : A2 4096 8192) (bias : A2 1 8192) : A2 4096 8192 := fun i =>
  ((((0 + tileDot a b 0 (row i) (col i)) + tileDot a b 1 (row i) (col i)) + tileDot a b 2 (row i) (col i))
    + tileDot a b 3 (row i) (col i)) + bias (ix2 0 (col i))

/-- The new cell state from the fused pre-activation (columns: input | forget | cell | output, 2048 each). -/
def cnew (pre : A2 4096 8192) (cc : A2 4096 2048) : A2 4096 2048 := fun i =>
  Ideal.logistic (pre (ix2 (row i) ⟨2048 + (col i).val, by omega⟩)) * cc (ix2 (row i) (col i))
    + Ideal.logistic (pre (ix2 (row i) ⟨(col i).val, by omega⟩)) * Ideal.tanh (pre (ix2 (row i) ⟨4096 + (col i).val, by omega⟩))

/-- The new hidden state from the fused pre-activation. -/
def hnew (pre : A2 4096 8192) (cc : A2 4096 2048) : A2 4096 2048 := fun i =>
  Ideal.logistic (pre (ix2 (row i) ⟨6144 + (col i).val, by omega⟩)) * Ideal.tanh (cnew pre cc i)

/-! ## The arrays the kernel's program builds before its first call -/

/-- `[x | h]`: the two inputs side by side. -/
def catCols (x h : A2 4096 2048) : A2 4096 4096 := fun i =>
  if hlt : (col i).val < 2048 then x (ix2 (row i) ⟨(col i).val, hlt⟩)
  else h (ix2 (row i) ⟨(col i).val - 2048, by have := (col i).isLt; omega⟩)

/-- One gate's weights: `Wxᵀ` on top of `Whᵀ`. -/
def wBlock (wx wh : A2 2048 2048) : A2 4096 2048 := fun i =>
  if hlt : (row i).val < 2048 then wx (ix2 (col i) ⟨(row i).val, hlt⟩)
  else wh (ix2 (col i) ⟨(row i).val - 2048, by have := (row i).isLt; omega⟩)

/-- The four gates' weight blocks side by side. -/
def wAll (g0 g1 g2 g3 : A2 4096 2048) : A2 4096 8192 := fun i =>
  if h0 : (col i).val < 2048 then g0 (ix2 (row i) ⟨(col i).val, h0⟩)
  else if h1 : (col i).val < 4096 then g1 (ix2 (row i) ⟨(col i).val - 2048, by omega⟩)
  else if h2 : (col i).val < 6144 then g2 (ix2 (row i) ⟨(col i).val - 4096, by omega⟩)
  else g3 (ix2 (row i) ⟨(col i).val - 6144, by have := (col i).isLt; omega⟩)

/-- The four gates' summed biases, end to end, as one row. -/
def biasAll (s0 s1 s2 s3 : A1 2048) : A2 1 8192 := fun i =>
  if h0 : (col i).val < 2048 then s0 (ix1 ⟨(col i).val, h0⟩)
  else if h1 : (col i).val < 4096 then s1 (ix1 ⟨(col i).val - 2048, by omega⟩)
  else if h2 : (col i).val < 6144 then s2 (ix1 ⟨(col i).val - 4096, by omega⟩)
  else s3 (ix1 ⟨(col i).val - 6144, by have := (col i).isLt; omega⟩)

/-- Two bias vectors added entry by entry. -/
def biasSum (bx bh : A1 2048) : A1 2048 := fun j => bx j + bh j

/-! ## The reference's side -/

/-- One linear map `x · Wᵀ + b`. -/
def lin (x : A2 4096 2048) (w : A2 2048 2048) (b : A1 2048) : A2 4096 2048 := fun i =>
  (∑ k : Fin 2048, x (ix2 (row i) k) * w (ix2 (col i) k)) + b (ix1 (col i))

/-- One gate's pre-activation: the map of `x` plus the map of `h`. -/
def gatePre (x h : A2 4096 2048) (wx : A2 2048 2048) (bx : A1 2048) (wh : A2 2048 2048) (bh : A1 2048) : A2 4096 2048 :=
  fun i => lin x wx bx i + lin h wh bh i

/-- The reference's new cell state from the four gates' pre-activations. -/
def refC (pi pf pg : A2 4096 2048) (cc : A2 4096 2048) : A2 4096 2048 := fun i =>
  Ideal.logistic (pf i) * cc i + Ideal.logistic (pi i) * Ideal.tanh (pg i)

/-- The reference's new hidden state. -/
def refH (pi pf pg po : A2 4096 2048) (cc : A2 4096 2048) : A2 4096 2048 := fun i =>
  Ideal.logistic (po i) * Ideal.tanh (refC pi pf pg cc i)

end Cert.Spec

end
-- ==== Proof.KI.Val0.lean ====
import proofs.«177083_j81518479278547_1_alg».proof.Proof.KI.R0
import proofs.«177083_j81518479278547_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open scoped BigOperators
open Cert.KernelIdeal Cert.KernelIdeal.Gen Cert.KernelIdeal.Hand

/-! # What the first pallas_call leaves in its result array, over the extended reals -/

variable (V : (c : Dev nD) → (b : Ref sig .tc) → Buf (Elt Ideal) ((c : Thread nD τ).loc b))

/-! ## The index maps, decided over the 64 grid points

Point `t` of the 4 × 4 × 4 grid has coordinates `(t / 16, t / 4 % 4, t % 4)`: row tile, column tile, and the tile
along the contracted axis, which moves fastest. -/

/-- The left operand's block at `t` is (row tile, contracted tile), the right operand's (contracted tile, column tile),
    the bias row's (0, column tile) and the result's (row tile, column tile). -/
theorem blockIndex_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-! ## The three payloads read at an entry

Over the extended reals the zero word is `0`, a sum is the sum, the shape casts to the same shape are the identity, and
the product of a 1024 × 1024 block with a 1024 × 2048 block into a zero accumulator is, at `(p, q)`, the sum over the
1024 contracted positions of the products of row `p` of the one with column `q` of the other. -/

/-- The product's left index on its row axis is the result's row. -/
theorem tileLhs_row (i : S1024x2048.Idx) (k : dot_S1024x1024_S1024x2048_S1024x2048_1_0_0_1_n_n.contr.Idx) :
    (dot_S1024x1024_S1024x2048_S1024x2048_1_0_0_1_n_n.lhsIdx i k 0).val = (i 0).val := by
  unfold DotDims.lhsIdx
  rw [dif_neg (show ¬(0 : Fin S1024x1024.rank) ∈ dot_S1024x1024_S1024x2048_S1024x2048_1_0_0_1_n_n.lhsBatch by decide),
    dif_pos (show (0 : Fin S1024x1024.rank) ∈ dot_S1024x1024_S1024x2048_S1024x2048_1_0_0_1_n_n.lhsNonContracting by decide)]
  rfl
/-- The product's left index on its column axis is the contracted position. -/
theorem tileLhs_col (i : S1024x2048.Idx) (k : dot_S1024x1024_S1024x2048_S1024x2048_1_0_0_1_n_n.contr.Idx) :
    (dot_S1024x1024_S1024x2048_S1024x2048_1_0_0_1_n_n.lhsIdx i k 1).val = (k ⟨0, by decide⟩).val :=
  dot_S1024x1024_S1024x2048_S1024x2048_1_0_0_1_n_n.lhsIdx_val_of_single rfl i k
/-- The product's right index on its row axis is the contracted position. -/
theorem tileRhs_row (i : S1024x2048.Idx) (k : dot_S1024x1024_S1024x2048_S1024x2048_1_0_0_1_n_n.contr.Idx) :
    (dot_S1024x1024_S1024x2048_S1024x2048_1_0_0_1_n_n.rhsIdx i k 0).val = (k ⟨0, by decide⟩).val :=
  dot_S1024x1024_S1024x2048_S1024x2048_1_0_0_1_n_n.rhsIdx_val_of_single rfl i k
/-- The product's right index on its column axis is the result's column. -/
theorem tileRhs_col (i : S1024x2048.Idx) (k : dot_S1024x1024_S1024x2048_S1024x2048_1_0_0_1_n_n.contr.Idx) :
    (dot_S1024x1024_S1024x2048_S1024x2048_1_0_0_1_n_n.rhsIdx i k 1).val = (i 1).val := by
  unfold DotDims.rhsIdx
  rw [dif_neg (show ¬(1 : Fin S1024x2048.rank) ∈ dot_S1024x1024_S1024x2048_S1024x2048_1_0_0_1_n_n.rhsBatch by decide),
    dif_pos (show (1 : Fin S1024x2048.rank) ∈ dot_S1024x1024_S1024x2048_S1024x2048_1_0_0_1_n_n.rhsNonContracting by decide)]
  rfl

/-- The block product into the zero accumulator, at `(p, q)`: row `p` of the left block against column `q` of the right. -/
theorem tileProduct_apply (x0 : FVec Ideal S1024x1024 .bf16) (x1 : FVec Ideal S1024x2048 .bf16) (p : Fin 1024) (q : Fin 2048) :
    matmul dot_S1024x1024_S1024x2048_S1024x2048_1_0_0_1_n_n none x0 x1 (constant (F := Ideal) S1024x2048 .f32 0x00000000#32) (ix2 p q)
      = ∑ kk : Fin 1024, x0 (ix2 p kk) * x1 (ix2 kk q) := by
  simp only [matmul]
  rw [Ideal.matmul_constant_zero_apply, ← Equiv.sum_comp (contrEquiv1 dot_S1024x1024_S1024x2048_S1024x2048_1_0_0_1_n_n 1024 rfl rfl).symm]
  refine Finset.sum_congr rfl fun kk _ => ?_
  have hk := contrEquiv1_symm_val dot_S1024x1024_S1024x2048_S1024x2048_1_0_0_1_n_n 1024 rfl rfl kk
  have el : dot_S1024x1024_S1024x2048_S1024x2048_1_0_0_1_n_n.lhsIdx (ix2 p q) ((contrEquiv1 dot_S1024x1024_S1024x2048_S1024x2048_1_0_0_1_n_n 1024 rfl rfl).symm kk) = ix2 p kk :=
    funext fun a => Fin.ext (by
      match a with
      | ⟨0, _⟩ => exact tileLhs_row _ _
      | ⟨1, _⟩ => exact (tileLhs_col _ _).trans hk)
  have er : dot_S1024x1024_S1024x2048_S1024x2048_1_0_0_1_n_n.rhsIdx (ix2 p q) ((contrEquiv1 dot_S1024x1024_S1024x2048_S1024x2048_1_0_0_1_n_n 1024 rfl rfl).symm kk) = ix2 kk q :=
    funext fun a => Fin.ext (by
      match a with
      | ⟨0, _⟩ => exact (tileRhs_row _ _).trans hk
      | ⟨1, _⟩ => exact tileRhs_col _ _)
  rw [el, er]

/-- The reset's payload is the zero block. -/
theorem zeroBlock_apply (p : Fin 1024) (q : Fin 2048) : (k0_pay1 (F := Ideal)) (ix2 p q) = 0 :=
  (congrFun (shapeCast_self (broadcast S1024x2048 (Scalar.ofBits (F := Ideal) .f32 0x00000000#32)) shapeCasts_S1024x2048_S1024x2048)
    (ix2 p q)).trans Ideal.ofBits_zero_f32

/-- The accumulating step's payload at `(p, q)`: what the accumulator held there plus the two blocks' product there. -/
theorem accStep_apply (acc : Vec Ideal S1024x2048 .f32) (x0 : Vec Ideal S1024x1024 .bf16) (x1 : Vec Ideal S1024x2048 .bf16)
    (p : Fin 1024) (q : Fin 2048) :
    k0_pay2 acc x0 x1 (ix2 p q) = acc (ix2 p q) + ∑ kk : Fin 1024, x0 (ix2 p kk) * x1 (ix2 kk q) := by
  unfold k0_pay2
  refine (congrFun (shapeCast_self _ shapeCasts_S1024x2048_S1024x2048) (ix2 p q)).trans ?_
  refine (addf_apply acc _ (ix2 p q)).trans ?_
  refine congrArg (acc (ix2 p q) + ·) ?_
  refine Eq.trans ?_ (tileProduct_apply x0 x1 p q)
  exact congrFun (congrArg₂ (fun a b => matmul dot_S1024x1024_S1024x2048_S1024x2048_1_0_0_1_n_n none a b (constant (F := Ideal) S1024x2048 .f32 0x00000000#32))
    (shapeCast_self x0 shapeCasts_S1024x1024_S1024x1024) (shapeCast_self x1 shapeCasts_S1024x2048_S1024x2048)) (ix2 p q)

/-- The last step's payload at `(p, q)`: the accumulator there plus the bias row's entry in column `q`. -/
theorem addBias_apply (acc : Vec Ideal S1024x2048 .f32) (b : Vec Ideal S1x2048 .f32) (p : Fin 1024) (q : Fin 2048) :
    k0_pay3 acc b (ix2 p q) = acc (ix2 p q) + b (ix2 (0 : Fin 1) q) := by
  unfold k0_pay3
  refine (addf_apply acc _ (ix2 p q)).trans ?_
  refine congrArg (acc (ix2 p q) + ·) ?_
  refine (broadcastTo_1b_ab_apply _ broadcasts_S1x2048_S1024x2048 p q).trans ?_
  exact congrFun (shapeCast_self b shapeCasts_S1x2048_S1x2048) (ix2 (0 : Fin 1) q)

/-! ## The operand blocks, read through their windows

An element of a window's block at point `t` sits in the array, on each axis, at the block index times the block's extent
plus its coordinate inside the block. -/

/-- The left operand's block at point `t`. -/
abbrev lhsBlock (c : Dev nD) (t : Fin cfg0.N) : Vec Ideal S1024x1024 .bf16 := iblk0 V c 0 t
/-- The right operand's block at point `t`. -/
abbrev rhsBlock (c : Dev nD) (t : Fin cfg0.N) : Vec Ideal S1024x2048 .bf16 := iblk0 V c 1 t
/-- The bias row's block at point `t`. -/
abbrev biasBlock (c : Dev nD) (t : Fin cfg0.N) : Vec Ideal S1x2048 .f32 := iblk0 V c 2 t
/-- The left operand `[x | h]`, as the call finds it. -/
abbrev lhsArr (c : Dev nD) : Cert.Spec.A2 4096 4096 := V c main_v2
/-- The right operand, the stacked weights, as the call finds it. -/
abbrev rhsArr (c : Dev nD) : Cert.Spec.A2 4096 8192 := V c main_v23
/-- The bias row, as the call finds it. -/
abbrev biasArr (c : Dev nD) : Cert.Spec.A2 1 8192 := V c main_v29

/-- Entry `(p, kk)` of the left block at `t` is the left operand at row `1024 (t / 16) + p`, column `1024 (t % 4) + kk`. -/
theorem lhsBlock_apply (c : Dev nD) (t : Fin cfg0.N) (p kk : Fin 1024) (r s : Fin 4096)
    (hr : r.val = 1024 * (t.val / 16) + p.val) (hs : s.val = 1024 * (t.val % 4) + kk.val) :
    lhsBlock V c t (ix2 p kk) = lhsArr V c (ix2 r s) := by
  obtain ⟨e0, e1, -⟩ := blockIndex_facts t
  show iblk0 V c 0 t (ix2 p kk) = _
  unfold iblk0
  rw [View.read_apply]
  show V c main_v2 _ = V c main_v2 _
  refine congrArg (V c main_v2) (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * kk.val = s.val; rw [e1, hs]; omega

/-- Entry `(kk, q)` of the right block at `t` is the right operand at row `1024 (t % 4) + kk`, column `2048 (t / 4 % 4) + q`. -/
theorem rhsBlock_apply (c : Dev nD) (t : Fin cfg0.N) (kk : Fin 1024) (q : Fin 2048) (s : Fin 4096) (n : Fin 8192)
    (hs : s.val = 1024 * (t.val % 4) + kk.val) (hn : n.val = 2048 * (t.val / 4 % 4) + q.val) :
    rhsBlock V c t (ix2 kk q) = rhsArr V c (ix2 s n) := by
  obtain ⟨-, -, e0, e1, -⟩ := blockIndex_facts t
  show iblk0 V c 1 t (ix2 kk q) = _
  unfold iblk0
  rw [View.read_apply]
  show V c main_v23 _ = V c main_v23 _
  refine congrArg (V c main_v23) (funext fun a => Fin.ext ?_)
  match a with
  | ⟨0, _⟩ => show win0_1.index t (0 : Fin 2) * 1024 + 1 * kk.val = s.val; rw [e0, hs]; omega
  | ⟨1, _⟩ => show win0_1.index t (1 : Fin 2) * 2048 + 1 * q.val = n.val; rw [e1, hn]; omega

/-- Entry `(0, q)` of the bias block at `t` is the bias row at column `2048 (t / 4 % 4) + q`. -/
theorem biasBlock_apply (c : Dev nD) (t : Fin cfg0.N) (q : Fin 2048) (n : Fin 8192)
    (hn : n.val = 2048 * (t.val / 4 % 4) + q.val) :
    biasBlock V c t (ix2 (0 : Fin 1) q) = biasArr V c (ix2 (0 : Fin 1) n) := by
  obtain ⟨-, -, -, -, e0, e1, -⟩ := blockIndex_facts t
  show iblk0 V c 2 t (ix2 (0 : Fin 1) q) = _
  unfold iblk0
  rw [View.read_apply]
  show V c main_v29 _ = V c main_v29 _
  refine congrArg (V c main_v29) (funext fun a => Fin.ext ?_)
  match a with
  | ⟨0, _⟩ => show win0_2.index t (0 : Fin 2) * 1 + 1 * 0 = 0; rw [e0]
  | ⟨1, _⟩ => show win0_2.index t (1 : Fin 2) * 2048 + 1 * q.val = n.val; rw [e1, hn]; omega

/-! ## The accumulator along a run of four points

A run is the four consecutive points that share a row tile and a column tile; along it the contracted tile `k = t % 4`
goes 0, 1, 2, 3. The first point of a run stores the zero block and adds tile 0's product to it; each later point adds
its own tile's product to what the point before left. -/

/-- Tile `k`'s contribution to entry `(r, n)` of the product, for a natural `k` (past the four tiles: zero, never read). -/
def tileTerm (a : Cert.Spec.A2 4096 4096) (b : Cert.Spec.A2 4096 8192) (r : Fin 4096) (n : Fin 8192) (k : ℕ) : EReal :=
  if h : k < 4 then Cert.Spec.tileDot a b ⟨k, h⟩ r n else 0

/-- Zero plus the contributions of tiles `0, …, k`, added in that order. -/
def tileSum (a : Cert.Spec.A2 4096 4096) (b : Cert.Spec.A2 4096 8192) (r : Fin 4096) (n : Fin 8192) : ℕ → EReal
  | 0 => 0 + tileTerm a b r n 0
  | k + 1 => tileSum a b r n k + tileTerm a b r n (k + 1)

/-- The two blocks' product at point `t`, entry `(p, q)`, is tile `t % 4`'s contribution to the entry of the whole
    product that `(p, q)` sits at: row `1024 (t / 16) + p`, column `2048 (t / 4 % 4) + q`. -/
theorem blockProduct_eq (c : Dev nD) (t : Fin cfg0.N) (p : Fin 1024) (q : Fin 2048) (r : Fin 4096) (n : Fin 8192) (k : ℕ)
    (hr : r.val = 1024 * (t.val / 16) + p.val) (hn : n.val = 2048 * (t.val / 4 % 4) + q.val) (hk : k = t.val % 4) :
    ∑ kk : Fin 1024, lhsBlock V c t (ix2 p kk) * rhsBlock V c t (ix2 kk q) = tileTerm (lhsArr V c) (rhsArr V c) r n k := by
  subst hk
  unfold tileTerm
  rw [dif_pos (Nat.mod_lt _ (by decide))]
  unfold Cert.Spec.tileDot
  refine Finset.sum_congr rfl fun kk _ => ?_
  exact congrArg₂ (· * ·) (lhsBlock_apply V c t p kk r _ hr rfl) (rhsBlock_apply V c t kk q _ n rfl hn)

/-- A run's first point leaves zero plus tile 0's contribution. -/
theorem firstStep_apply (c : Dev nD) (t : Fin cfg0.N) (p : Fin 1024) (q : Fin 2048) (r : Fin 4096) (n : Fin 8192)
    (hr : r.val = 1024 * (t.val / 16) + p.val) (hn : n.val = 2048 * (t.val / 4 % 4) + q.val) (h0 : t.val % 4 = 0) :
    k0_pay2 (k0_pay1 (F := Ideal)) (lhsBlock V c t) (rhsBlock V c t) (ix2 p q) = tileSum (lhsArr V c) (rhsArr V c) r n 0 := by
  refine (accStep_apply (k0_pay1 (F := Ideal)) (lhsBlock V c t) (rhsBlock V c t) p q).trans ?_
  rw [zeroBlock_apply, blockProduct_eq V c t p q r n 0 hr hn h0.symm]
  rfl

/-- THE INVARIANT. After point `n` the accumulator holds, at `(p, q)`, zero plus the contributions of tiles `0, …, n % 4`
    to the entry of the product that `(p, q)` sits at in the run's row and column tile — by induction on the point: a
    point with `n % 4 = 0` starts afresh, any other adds tile `n % 4` to what the point before (same run) left. -/
theorem acc_apply (c : Dev nD) : ∀ (n : ℕ) (h : n < cfg0.N) (p : Fin 1024) (q : Fin 2048) (r : Fin 4096) (col : Fin 8192),
    r.val = 1024 * (n / 16) + p.val → col.val = 2048 * (n / 4 % 4) + q.val →
    acc0 V c n h (ix2 p q) = tileSum (lhsArr V c) (rhsArr V c) r col (n % 4)
  | 0, h, p, q, r, col, hr, hc => by
    show k0_pay2 (k0_pay1 (F := Ideal)) (lhsBlock V c ⟨0, h⟩) (rhsBlock V c ⟨0, h⟩) (ix2 p q) = _
    exact firstStep_apply V c ⟨0, h⟩ p q r col hr hc rfl
  | n + 1, h, p, q, r, col, hr, hc => by
    by_cases h0 : (n + 1) % 4 = 0
    · have e : acc0 V c (n + 1) h = k0_pay2 (k0_pay1 (F := Ideal)) (lhsBlock V c ⟨n + 1, h⟩) (rhsBlock V c ⟨n + 1, h⟩) := by
        rw [acc0, if_pos h0]
      rw [e, h0]
      exact firstStep_apply V c ⟨n + 1, h⟩ p q r col hr hc h0
    · have e : acc0 V c (n + 1) h = k0_pay2 (acc0 V c n (Nat.lt_of_succ_lt h)) (lhsBlock V c ⟨n + 1, h⟩) (rhsBlock V c ⟨n + 1, h⟩) := by
        rw [acc0, if_neg h0]
      have hk : (n + 1) % 4 = n % 4 + 1 := by omega
      rw [e, hk]
      refine (accStep_apply (acc0 V c n (Nat.lt_of_succ_lt h)) (lhsBlock V c ⟨n + 1, h⟩) (rhsBlock V c ⟨n + 1, h⟩) p q).trans ?_
      rw [acc_apply c n (Nat.lt_of_succ_lt h) p q r col (by omega) (by omega),
        blockProduct_eq V c ⟨n + 1, h⟩ p q r col (n % 4 + 1) hr hc hk.symm]
      rfl

/-! ## What a run's last point stores, and the result array

At a point with `t % 4 = 3` the accumulator holds all four tiles; the body stores it plus the bias row, broadcast down the
rows, into the result's block, and the pipeline writes that block back. These are the only write-backs of the result,
one per (row tile, column tile), and the sixteen blocks tile the array. -/

/-- Zero plus all four tiles is the specification's chain. -/
theorem tileSum_three (a : Cert.Spec.A2 4096 4096) (b : Cert.Spec.A2 4096 8192) (r : Fin 4096) (n : Fin 8192) :
    tileSum a b r n 3
      = (((0 + Cert.Spec.tileDot a b 0 r n) + Cert.Spec.tileDot a b 1 r n) + Cert.Spec.tileDot a b 2 r n) + Cert.Spec.tileDot a b 3 r n := rfl

/-- What the last point of a run stores at `(p, q)` is the specification at the entry `(p, q)` sits at. -/
theorem outv_apply (c : Dev nD) (t : Fin cfg0.N) (h3 : t.val % 4 = 3) (p : Fin 1024) (q : Fin 2048) (r : Fin 4096) (col : Fin 8192)
    (hr : r.val = 1024 * (t.val / 16) + p.val) (hc : col.val = 2048 * (t.val / 4 % 4) + q.val) :
    outv0 V c t (ix2 p q) = Cert.Spec.preact (lhsArr V c) (rhsArr V c) (biasArr V c) (ix2 r col) := by
  show k0_pay3 (acc0 V c t.val t.isLt) (biasBlock V c t) (ix2 p q) = _
  refine (addBias_apply (acc0 V c t.val t.isLt) (biasBlock V c t) p q).trans ?_
  rw [acc_apply V c t.val t.isLt p q r col hr hc, biasBlock_apply V c t q col hc, h3, tileSum_three]
  rfl

/-- THE WRITE-BACKS. What a point with `t % 4 = 3` writes back is its block of the specification. -/
theorem flushed_eq (c : Dev nD) (t : Fin cfg0.N) (hf : (cfg0.win 3).flush t = true) :
    (dat0 V c).flushed 3 t
      = ((cfg0.win 3).blk t).view.read (Elt Ideal) (Cert.Spec.preact (lhsArr V c) (rhsArr V c) (biasArr V c)) := by
  have h3 : t.val % 4 = 3 := (flush0_3 t).mp hf
  have ht : t.val < 64 := lt_of_lt_of_eq t.isLt (show cfg0.N = 64 from N_0)
  obtain ⟨-, -, -, -, -, -, e0, e1⟩ := blockIndex_facts t
  show (cfg0.win 3).cut (grid0.coords t) ((dat0 V c).after 3 t) = _
  rw [after0_3]
  funext j
  have hp : (j 0).val < 1024 := (j 0).isLt
  have hq : (j 1).val < 2048 := (j 1).isLt
  rw [View.read_apply]
  show outv0 V c t ((cfg0.win 3).xinj (grid0.coords t) j)
    = Cert.Spec.preact (lhsArr V c) (rhsArr V c) (biasArr V c) (((cfg0.win 3).blk t).view.emb j)
  have hj : (cfg0.win 3).xinj (grid0.coords t) j = ix2 (⟨(j 0).val, hp⟩ : Fin 1024) (⟨(j 1).val, hq⟩ : Fin 2048) :=
    funext fun a => match a with | ⟨0, _⟩ => rfl | ⟨1, _⟩ => rfl
  have hi : ((cfg0.win 3).blk t).view.emb j
      = ix2 (⟨1024 * (t.val / 16) + (j 0).val, by omega⟩ : Fin 4096) (⟨2048 * (t.val / 4 % 4) + (j 1).val, by omega⟩ : Fin 8192) :=
    funext fun a => Fin.ext (by
      match a with
      | ⟨0, _⟩ => show win0_3.index t (0 : Fin 2) * 1024 + 1 * (j 0).val = 1024 * (t.val / 16) + (j 0).val; rw [e0]; omega
      | ⟨1, _⟩ => show win0_3.index t (1 : Fin 2) * 2048 + 1 * (j 1).val = 2048 * (t.val / 4 % 4) + (j 1).val; rw [e1]; omega)
  refine (congrArg (outv0 V c t) hj).trans ?_
  refine Eq.trans ?_ (congrArg (Cert.Spec.preact (lhsArr V c) (rhsArr V c) (biasArr V c)) hi).symm
  exact outv_apply V c t h3 ⟨(j 0).val, hp⟩ ⟨(j 1).val, hq⟩ _ _ rfl rfl

/-- An entry of the result array is in point `t`'s block iff each coordinate is in the block's range on its axis. -/
theorem mem_resultBlock (t : Fin cfg0.N) (i : S4096x8192.Idx) :
    i ∈ ((cfg0.win 3).blk t).view.set
      ↔ ∀ a : Fin 2, win0_3.index t a * S1024x2048.size a ≤ (i a).val ∧ (i a).val < win0_3.index t a * S1024x2048.size a + S1024x2048.size a := by
  show i ∈ ((View.whole main_v30).slice (win0_3.rect t)).set ↔ _
  rw [View.set_slice_whole, Rect.mem_set_unit]
  exact Iff.rfl

/-- THE COVER. Entry `(r, n)` lies in the block written back by the last point of the run of row tile `r / 1024` and
    column tile `n / 2048`: point `16 (r / 1024) + 4 (n / 2048) + 3`. -/
theorem result_covered (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  have hN : cfg0.N = 64 := N_0
  obtain ⟨t, ht⟩ : ∃ t : Fin cfg0.N, t.val = 16 * ((i 0).val / 1024) + 4 * ((i 1).val / 2048) + 3 :=
    ⟨⟨16 * ((i 0).val / 1024) + 4 * ((i 1).val / 2048) + 3, by rw [hN]; omega⟩, rfl⟩
  obtain ⟨-, -, -, -, -, -, e0, e1⟩ := blockIndex_facts t
  refine ⟨t, (flush0_3 t).mpr (by omega), ?_⟩
  rw [mem_resultBlock]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 2048 ≤ (i 1).val ∧ (i 1).val < win0_3.index t (1 : Fin 2) * 2048 + 2048
    rw [e1]; omega

/-- After the 64 grid points the result array holds, entry by entry, zero plus the four tiles' dot products in order
    plus the bias row's entry: `Spec.preact` of the three operand arrays as the call found them. -/
theorem preact_arr (c : Dev nD) :
    ((dat0 (F := Ideal) V c).arrAt 3 cfg0.N : S4096x8192.Idx → EReal)
      = Cert.Spec.preact (V c main_v2) (V c main_v23) (V c main_v29) :=
  (dat0 V c).arrAt_eq_of_cover 3 (Cert.Spec.preact (lhsArr V c) (rhsArr V c) (biasArr V c))
    (fun t hf => flushed_eq V c t hf) result_covered

end Cert.KernelIdeal.Val

end
-- ==== Proof.KI.Val1.lean ====
import proofs.«177083_j81518479278547_1_alg».proof.Proof.KI.R1
import proofs.«177083_j81518479278547_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open scoped BigOperators
open Cert.KernelIdeal Cert.KernelIdeal.Gen Cert.KernelIdeal.Hand

/-! # What the second pallas_call leaves in its two result arrays, over the extended reals -/

variable (V : (c : Dev nD) → (b : Ref sig .tc) → Buf (Elt Ideal) ((c : Thread nD τ).loc b))

/-! ## The payloads at an entry of the block

Row `p` of a block holds, side by side, the input, forget, cell and output gates' pre-activations, 2048 columns each. -/

/-- The gate block recast to its own shape is itself. -/
theorem gates_recast (x0 : Vec Ideal S256x8192 .f32) : k1_pay1 x0 = x0 := shapeCast_self x0 _

/-- The 2048 columns of the gate block from column `off` on, at an entry: column `q` of them is column `off + q`. -/
theorem gateCols_apply (off : Nat) (h : S256x8192.Slices ![0, off] S256x2048)
    (x0 : Vec Ideal S256x8192 .f32) (p : Fin 256) (q : Fin 2048) (k : Fin 8192) (hk : k.val = off + q.val) :
    extractStridedSlice S256x2048 ![0, off] x0 h (ix2 p q) = x0 (ix2 p k) :=
  extractStridedSlice_apply _ _ _ _ _ fun a => match a with
    | ⟨0, _⟩ => by show p.val = 0 + p.val; omega
    | ⟨1, _⟩ => hk

/-- The new cell state at an entry: `σ(f)·c + σ(i)·tanh(g)`. -/
theorem cellPayload_apply (x0 : Vec Ideal S256x8192 .f32) (x1 : Vec Ideal S256x2048 .f32) (p : Fin 256) (q : Fin 2048) :
    k1_pay2 x0 x1 (ix2 p q)
      = Ideal.logistic (x0 (ix2 p ⟨2048 + q.val, by omega⟩)) * x1 (ix2 p q)
        + Ideal.logistic (x0 (ix2 p ⟨q.val, by omega⟩)) * Ideal.tanh (x0 (ix2 p ⟨4096 + q.val, by omega⟩)) := by
  unfold k1_pay2
  simp only [gates_recast]
  show Ideal.logistic (extractStridedSlice S256x2048 ![0, 2048] x0 slices_S256x8192_o0_2048_S256x2048 (ix2 p q)) * x1 (ix2 p q)
      + Ideal.logistic (extractStridedSlice S256x2048 ![0, 0] x0 slices_S256x8192_o0_0_S256x2048 (ix2 p q))
        * Ideal.tanh (extractStridedSlice S256x2048 ![0, 4096] x0 slices_S256x8192_o0_4096_S256x2048 (ix2 p q)) = _
  rw [gateCols_apply 2048 _ x0 p q ⟨2048 + q.val, by omega⟩ rfl,
    gateCols_apply 0 _ x0 p q ⟨q.val, by omega⟩ (Nat.zero_add _).symm,
    gateCols_apply 4096 _ x0 p q ⟨4096 + q.val, by omega⟩ rfl]

/-- The new hidden state at an entry: `σ(o)·tanh(c')`. -/
theorem hiddenPayload_apply (x0 : Vec Ideal S256x8192 .f32) (x1 : Vec Ideal S256x2048 .f32) (p : Fin 256) (q : Fin 2048) :
    k1_pay3 x0 x1 (ix2 p q)
      = Ideal.logistic (x0 (ix2 p ⟨6144 + q.val, by omega⟩)) * Ideal.tanh (k1_pay2 x0 x1 (ix2 p q)) := by
  unfold k1_pay3
  simp only [gates_recast]
  show Ideal.logistic (extractStridedSlice S256x2048 ![0, 6144] x0 slices_S256x8192_o0_6144_S256x2048 (ix2 p q))
      * Ideal.tanh (k1_pay2 x0 x1 (ix2 p q)) = _
  rw [gateCols_apply 6144 _ x0 p q ⟨6144 + q.val, by omega⟩ rfl]

/-! ## Where a block sits in its array

Grid point `t` works on rows `256 t … 256 t + 255` of every one of the four arrays, all columns. -/

/-- The four windows' block indices at every point: `(t, 0)`. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 16 := lt_of_lt_of_eq t.isLt N_1

/-- Row `p` of block `t` as a row of the array. -/
def blockRow (t : Fin cfg1.N) (p : Fin 256) : Fin 4096 := ⟨256 * t.val + p.val, by have := point_lt t; omega⟩

theorem gateBlock_emb (t : Fin cfg1.N) (p : Fin 256) (k : Fin 8192) :
    ((cfg1.win 0).blk t).view.emb (ix2 p k) = (ix2 (blockRow t p) k : S4096x8192.Idx) := by
  obtain ⟨e0, e1, -⟩ := blockIndex t
  funext a; apply Fin.ext
  match a with
  | ⟨0, _⟩ => show win1_0.index t (0 : Fin 2) * 256 + 1 * p.val = 256 * t.val + p.val; omega
  | ⟨1, _⟩ => show win1_0.index t (1 : Fin 2) * 8192 + 1 * k.val = k.val; omega

theorem stateBlock_emb (t : Fin cfg1.N) (p : Fin 256) (q : Fin 2048) :
    ((cfg1.win 1).blk t).view.emb (ix2 p q) = (ix2 (blockRow t p) q : S4096x2048.Idx) := by
  obtain ⟨-, -, e0, e1, -⟩ := blockIndex t
  funext a; apply Fin.ext
  match a with
  | ⟨0, _⟩ => show win1_1.index t (0 : Fin 2) * 256 + 1 * p.val = 256 * t.val + p.val; omega
  | ⟨1, _⟩ => show win1_1.index t (1 : Fin 2) * 2048 + 1 * q.val = q.val; omega

theorem hiddenBlock_emb (t : Fin cfg1.N) (p : Fin 256) (q : Fin 2048) :
    ((cfg1.win 2).blk t).view.emb (ix2 p q) = (ix2 (blockRow t p) q : S4096x2048.Idx) := by
  obtain ⟨-, -, -, -, e0, e1, -⟩ := blockIndex t
  funext a; apply Fin.ext
  match a with
  | ⟨0, _⟩ => show win1_2.index t (0 : Fin 2) * 256 + 1 * p.val = 256 * t.val + p.val; omega
  | ⟨1, _⟩ => show win1_2.index t (1 : Fin 2) * 2048 + 1 * q.val = q.val; omega

theorem cellBlock_emb (t : Fin cfg1.N) (p : Fin 256) (q : Fin 2048) :
    ((cfg1.win 3).blk t).view.emb (ix2 p q) = (ix2 (blockRow t p) q : S4096x2048.Idx) := by
  obtain ⟨-, -, -, -, -, -, e0, e1⟩ := blockIndex t
  funext a; apply Fin.ext
  match a with
  | ⟨0, _⟩ => show win1_3.index t (0 : Fin 2) * 256 + 1 * p.val = 256 * t.val + p.val; omega
  | ⟨1, _⟩ => show win1_3.index t (1 : Fin 2) * 2048 + 1 * q.val = q.val; omega

/-- The gate window's block at point `t` is those rows of the pre-activation array; -/
theorem gates_at (c : Dev nD) (t : Fin cfg1.N) (p : Fin 256) (k : Fin 8192) :
    iblk1 V c 0 t (ix2 p k) = V c main_v30 (ix2 (blockRow t p) k) :=
  congrArg (V c main_v30) (gateBlock_emb t p k)

/-- the state window's, of the old cell state. -/
theorem state_at (c : Dev nD) (t : Fin cfg1.N) (p : Fin 256) (q : Fin 2048) :
    iblk1 V c 1 t (ix2 p q) = V c main_arg2 (ix2 (blockRow t p) q) :=
  congrArg (V c main_arg2) (stateBlock_emb t p q)

/-! ## What each point writes back -/

/-- Point `t` writes back block `t` of the new cell state. -/
theorem cellFlushed (c : Dev nD) (t : Fin cfg1.N) :
    (dat1 (F := Ideal) V c).flushed 3 t
      = ((cfg1.win 3).blk t).view.read (Elt Ideal) (Cert.Spec.cnew (V c main_v30) (V c main_arg2)) := by
  show (cfg1.win 3).cut (grid1.coords t) ((dat1 V c).after 3 t) = _
  rw [after1_3]
  funext j
  obtain ⟨p, q, rfl⟩ : ∃ (p : Fin 256) (q : Fin 2048), j = ix2 p q := ⟨j 0, j 1, eq_ix2 j⟩
  show k1_pay2 (iblk1 V c 0 t) (iblk1 V c 1 t) (ix2 p q)
    = Cert.Spec.cnew (V c main_v30) (V c main_arg2) (((cfg1.win 3).blk t).view.emb (ix2 p q))
  rw [cellPayload_apply, cellBlock_emb, gates_at, gates_at, gates_at, state_at]
  rfl

/-- Point `t` writes back block `t` of the new hidden state. -/
theorem hiddenFlushed (c : Dev nD) (t : Fin cfg1.N) :
    (dat1 (F := Ideal) V c).flushed 2 t
      = ((cfg1.win 2).blk t).view.read (Elt Ideal) (Cert.Spec.hnew (V c main_v30) (V c main_arg2)) := by
  show (cfg1.win 2).cut (grid1.coords t) ((dat1 V c).after 2 t) = _
  rw [after1_2]
  funext j
  obtain ⟨p, q, rfl⟩ : ∃ (p : Fin 256) (q : Fin 2048), j = ix2 p q := ⟨j 0, j 1, eq_ix2 j⟩
  show k1_pay3 (iblk1 V c 0 t) (iblk1 V c 1 t) (ix2 p q)
    = Cert.Spec.hnew (V c main_v30) (V c main_arg2) (((cfg1.win 2).blk t).view.emb (ix2 p q))
  rw [hiddenPayload_apply, cellPayload_apply, hiddenBlock_emb, gates_at, gates_at, gates_at, gates_at, state_at]
  rfl

/-! ## The sixteen blocks fill the arrays -/

theorem mem_hiddenBlock (t : Fin cfg1.N) (i : S4096x2048.Idx) :
    i ∈ ((cfg1.win 2).blk t).view.set ↔ ∀ a : Fin 2, win1_2.index t a * S256x2048.size a ≤ (i a).val
      ∧ (i a).val < win1_2.index t a * S256x2048.size a + S256x2048.size a := by
  show i ∈ ((View.whole main_v31_0).slice (win1_2.rect t)).set ↔ _
  rw [View.set_slice_whole, Rect.mem_set_unit]
  exact Iff.rfl

theorem mem_cellBlock (t : Fin cfg1.N) (i : S4096x2048.Idx) :
    i ∈ ((cfg1.win 3).blk t).view.set ↔ ∀ a : Fin 2, win1_3.index t a * S256x2048.size a ≤ (i a).val
      ∧ (i a).val < win1_3.index t a * S256x2048.size a + S256x2048.size a := by
  show i ∈ ((View.whole main_v31_1).slice (win1_3.rect t)).set ↔ _
  rw [View.set_slice_whole, Rect.mem_set_unit]
  exact Iff.rfl

/-- Row `r` of the hidden-state array is in block `r / 256`, which is written back. -/
theorem hidden_cover (i : S4096x2048.Idx) :
    ∃ t : Fin cfg1.N, (cfg1.win 2).flush t = true ∧ i ∈ ((cfg1.win 2).blk t).view.set := by
  have hi0 : (i 0).val < 4096 := (i 0).isLt
  have hi1 : (i 1).val < 2048 := (i 1).isLt
  obtain ⟨t, ht⟩ : ∃ t : Fin cfg1.N, t.val = (i 0).val / 256 :=
    ⟨⟨(i 0).val / 256, by rw [show cfg1.N = 16 from N_1]; omega⟩, rfl⟩
  obtain ⟨-, -, -, -, e0, e1, -⟩ := blockIndex t
  refine ⟨t, flush1_2 t, ?_⟩
  rw [mem_hiddenBlock]
  intro a
  match a with
  | ⟨0, _⟩ =>
    show win1_2.index t (0 : Fin 2) * 256 ≤ (i 0).val ∧ (i 0).val < win1_2.index t (0 : Fin 2) * 256 + 256
    omega
  | ⟨1, _⟩ =>
    show win1_2.index t (1 : Fin 2) * 2048 ≤ (i 1).val ∧ (i 1).val < win1_2.index t (1 : Fin 2) * 2048 + 2048
    omega

/-- Likewise the cell-state array. -/
theorem cell_cover (i : S4096x2048.Idx) :
    ∃ t : Fin cfg1.N, (cfg1.win 3).flush t = true ∧ i ∈ ((cfg1.win 3).blk t).view.set := by
  have hi0 : (i 0).val < 4096 := (i 0).isLt
  have hi1 : (i 1).val < 2048 := (i 1).isLt
  obtain ⟨t, ht⟩ : ∃ t : Fin cfg1.N, t.val = (i 0).val / 256 :=
    ⟨⟨(i 0).val / 256, by rw [show cfg1.N = 16 from N_1]; omega⟩, rfl⟩
  obtain ⟨-, -, -, -, -, -, e0, e1⟩ := blockIndex t
  refine ⟨t, flush1_3 t, ?_⟩
  rw [mem_cellBlock]
  intro a
  match a with
  | ⟨0, _⟩ =>
    show win1_3.index t (0 : Fin 2) * 256 ≤ (i 0).val ∧ (i 0).val < win1_3.index t (0 : Fin 2) * 256 + 256
    omega
  | ⟨1, _⟩ =>
    show win1_3.index t (1 : Fin 2) * 2048 ≤ (i 1).val ∧ (i 1).val < win1_3.index t (1 : Fin 2) * 2048 + 2048
    omega

/-! ## The two result arrays -/

/-- The new hidden state, entry by entry, from the pre-activation array and the old cell state as the call found them. -/
theorem hnew_arr (c : Dev nD) :
    ((dat1 (F := Ideal) V c).arrAt 2 cfg1.N : S4096x2048.Idx → EReal) = Cert.Spec.hnew (V c main_v30) (V c main_arg2) :=
  (dat1 (F := Ideal) V c).arrAt_eq_of_cover 2 _ (fun t _ => hiddenFlushed V c t) hidden_cover

/-- The new cell state, likewise. -/
theorem cnew_arr (c : Dev nD) :
    ((dat1 (F := Ideal) V c).arrAt 3 cfg1.N : S4096x2048.Idx → EReal) = Cert.Spec.cnew (V c main_v30) (V c main_arg2) :=
  (dat1 (F := Ideal) V c).arrAt_eq_of_cover 3 _ (fun t _ => cellFlushed V c t) cell_cover

end Cert.KernelIdeal.Val

end
-- ==== Proof.KI.Host.lean ====
import proofs.«177083_j81518479278547_1_alg».proof.Proof.Gen.KernelIdeal.Launch
import proofs.«177083_j81518479278547_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open scoped BigOperators
open Cert.KernelIdeal Cert.KernelIdeal.Gen

/-! # Concatenations and transposes of whole arrays, read entry by entry

Each lemma says that one of the program's layout operations, applied to arbitrary operands of the sizes met here, is
the matching function of `Cert.Spec`. An entry is located by which piece its coordinate along the joined axis falls
in; inside the piece that coordinate is the extents of the earlier pieces less, and the other coordinate is unchanged. -/

/-- Two `[4096, 2048]` matrices laid side by side are `catCols` of them. -/
theorem cols2_eq (x h : Cert.Spec.A2 4096 2048) (hc : Shape.Concatenates [S4096x2048, S4096x2048] S4096x4096 1) :
    (concatenate S4096x4096 1 [⟨S4096x2048, x⟩, ⟨S4096x2048, h⟩] hc : S4096x4096.Idx → EReal) = Cert.Spec.catCols x h := by
  funext j
  obtain ⟨r, q, rfl⟩ : ∃ (r : Fin 4096) (q : Fin 4096), j = ix2 r q := ⟨j 0, j 1, eq_ix2 j⟩
  unfold Cert.Spec.catCols
  by_cases hlt : q.val < 2048
  · rw [dif_pos (show (Cert.Spec.col (ix2 r q)).val < 2048 from hlt)]
    refine concatenate_pair_apply_left 1 x h hc (ix2 r q) rfl _ ?_
    intro b; match b with | ⟨0, _⟩ => rfl | ⟨1, _⟩ => rfl
  · rw [dif_neg (show ¬ (Cert.Spec.col (ix2 r q)).val < 2048 from hlt)]
    refine concatenate_pair_apply_right 1 x h hc (ix2 r q) rfl rfl _ ?_ ?_
    · intro b hb; match b, hb with | ⟨0, _⟩, _ => rfl | ⟨1, _⟩, hb => exact absurd rfl hb
    · show (q.val - 2048) + 2048 = q.val; omega

/-- A transposed square matrix read at `(p, q)` is the matrix at `(q, p)`. -/
theorem transposed_apply (w : Cert.Spec.A2 2048 2048) (ht : S2048x2048.Transposes [1, 0] S2048x2048) (p q : Fin 2048) :
    (transpose S2048x2048 [1, 0] w ht : S2048x2048.Idx → EReal) (ix2 p q) = w (ix2 q p) := by
  refine transpose_apply [1, 0] w ht (ix2 p q) (ix2 q p) ?_
  intro b; match b with | ⟨0, _⟩ => rfl | ⟨1, _⟩ => rfl

/-- One transposed weight matrix on top of another is `wBlock` of the two. -/
theorem rows2T_eq (wx wh : Cert.Spec.A2 2048 2048) (ht : S2048x2048.Transposes [1, 0] S2048x2048)
    (hc : Shape.Concatenates [S2048x2048, S2048x2048] S4096x2048 0) :
    (concatenate S4096x2048 0 [⟨S2048x2048, transpose S2048x2048 [1, 0] wx ht⟩, ⟨S2048x2048, transpose S2048x2048 [1, 0] wh ht⟩] hc
        : S4096x2048.Idx → EReal) = Cert.Spec.wBlock wx wh := by
  funext j
  obtain ⟨r, q, rfl⟩ : ∃ (r : Fin 4096) (q : Fin 2048), j = ix2 r q := ⟨j 0, j 1, eq_ix2 j⟩
  unfold Cert.Spec.wBlock
  by_cases hlt : r.val < 2048
  · rw [dif_pos (show (Cert.Spec.row (ix2 r q)).val < 2048 from hlt)]
    refine (concatenate_pair_apply_left 0 _ _ hc (ix2 r q) rfl (ix2 (⟨r.val, hlt⟩ : Fin 2048) q) ?_).trans ?_
    · intro b; match b with | ⟨0, _⟩ => rfl | ⟨1, _⟩ => rfl
    · exact transposed_apply wx ht _ _
  · rw [dif_neg (show ¬ (Cert.Spec.row (ix2 r q)).val < 2048 from hlt)]
    refine (concatenate_pair_apply_right 0 _ _ hc (ix2 r q) rfl rfl (ix2 (⟨r.val - 2048, by omega⟩ : Fin 2048) q) ?_ ?_).trans ?_
    · intro b hb; match b, hb with | ⟨0, _⟩, hb => exact absurd rfl hb | ⟨1, _⟩, _ => rfl
    · show (r.val - 2048) + 2048 = r.val; omega
    · exact transposed_apply wh ht _ _

/-- Four `[4096, 2048]` blocks laid side by side are `wAll` of them. -/
theorem cols4_eq (g0 g1 g2 g3 : Cert.Spec.A2 4096 2048)
    (hc : Shape.Concatenates [S4096x2048, S4096x2048, S4096x2048, S4096x2048] S4096x8192 1) :
    (concatenate S4096x8192 1 [⟨S4096x2048, g0⟩, ⟨S4096x2048, g1⟩, ⟨S4096x2048, g2⟩, ⟨S4096x2048, g3⟩] hc
        : S4096x8192.Idx → EReal) = Cert.Spec.wAll g0 g1 g2 g3 := by
  funext j
  obtain ⟨r, q, rfl⟩ : ∃ (r : Fin 4096) (q : Fin 8192), j = ix2 r q := ⟨j 0, j 1, eq_ix2 j⟩
  have hq := q.isLt
  have side : ∀ (i : S4096x2048.Idx), (i 0).val = r.val →
      ∀ b : Fin S4096x2048.rank, b.cast (rfl : S4096x2048.rank = S4096x8192.rank) ≠ 1 → (i b).val = ((ix2 r q) (b.cast rfl)).val := by
    intro i hi b hb; match b, hb with | ⟨0, _⟩, _ => exact hi | ⟨1, _⟩, hb => exact absurd rfl hb
  have P := @concatenate_apply_piece EReal S4096x8192 1
    [⟨S4096x2048, g0⟩, ⟨S4096x2048, g1⟩, ⟨S4096x2048, g2⟩, ⟨S4096x2048, g3⟩] hc (ix2 r q)
  unfold Cert.Spec.wAll
  by_cases h0 : q.val < 2048
  · rw [dif_pos (show (Cert.Spec.col (ix2 r q)).val < 2048 from h0)]
    exact P 0 (by show 0 < 4; omega) S4096x2048 g0 rfl rfl 0 rfl
      (ix2 r (⟨q.val, h0⟩ : Fin 2048)) (side _ rfl) (by show 0 + q.val = q.val; omega)
  · rw [dif_neg (show ¬ (Cert.Spec.col (ix2 r q)).val < 2048 from h0)]
    by_cases h1 : q.val < 4096
    · rw [dif_pos (show (Cert.Spec.col (ix2 r q)).val < 4096 from h1)]
      exact P 1 (by show 1 < 4; omega) S4096x2048 g1 rfl rfl 2048 rfl
        (ix2 r (⟨q.val - 2048, by omega⟩ : Fin 2048)) (side _ rfl) (by show 2048 + (q.val - 2048) = q.val; omega)
    · rw [dif_neg (show ¬ (Cert.Spec.col (ix2 r q)).val < 4096 from h1)]
      by_cases h2 : q.val < 6144
      · rw [dif_pos (show (Cert.Spec.col (ix2 r q)).val < 6144 from h2)]
        exact P 2 (by show 2 < 4; omega) S4096x2048 g2 rfl rfl 4096 rfl
          (ix2 r (⟨q.val - 4096, by omega⟩ : Fin 2048)) (side _ rfl) (by show 4096 + (q.val - 4096) = q.val; omega)
      · rw [dif_neg (show ¬ (Cert.Spec.col (ix2 r q)).val < 6144 from h2)]
        exact P 3 (by show 3 < 4; omega) S4096x2048 g3 rfl rfl 6144 rfl
          (ix2 r (⟨q.val - 6144, by omega⟩ : Fin 2048)) (side _ rfl) (by show 6144 + (q.val - 6144) = q.val; omega)

/-- Four vectors of 2048 laid end to end and read as one row are `biasAll` of them. -/
theorem row4_eq (s0 s1 s2 s3 : Cert.Spec.A1 2048)
    (hc : Shape.Concatenates [S2048, S2048, S2048, S2048] S8192 0) (hs : S8192.ShapeCasts S1x8192) :
    (shapeCast S1x8192 (concatenate S8192 0 [⟨S2048, s0⟩, ⟨S2048, s1⟩, ⟨S2048, s2⟩, ⟨S2048, s3⟩] hc : S8192.Idx → EReal) hs
        : S1x8192.Idx → EReal) = Cert.Spec.biasAll s0 s1 s2 s3 := by
  funext j
  obtain ⟨u, q, rfl⟩ : ∃ (u : Fin 1) (q : Fin 8192), j = ix2 u q := ⟨j 0, j 1, eq_ix2 j⟩
  have hq := q.isLt
  refine (shapeCast_a_1a_apply _ hs u q).trans ?_
  have side : ∀ (i : S2048.Idx) (b : Fin S2048.rank), b.cast (rfl : S2048.rank = S8192.rank) ≠ 0 → (i b).val = ((ix1 q) (b.cast rfl)).val := by
    intro i b hb; match b, hb with | ⟨0, _⟩, hb => exact absurd rfl hb
  have P := @concatenate_apply_piece EReal S8192 0
    [⟨S2048, s0⟩, ⟨S2048, s1⟩, ⟨S2048, s2⟩, ⟨S2048, s3⟩] hc (ix1 q)
  unfold Cert.Spec.biasAll
  by_cases h0 : q.val < 2048
  · rw [dif_pos (show (Cert.Spec.col (ix2 u q)).val < 2048 from h0)]
    exact P 0 (by show 0 < 4; omega) S2048 s0 rfl rfl 0 rfl
      (ix1 (⟨q.val, h0⟩ : Fin 2048)) (side _) (by show 0 + q.val = q.val; omega)
  · rw [dif_neg (show ¬ (Cert.Spec.col (ix2 u q)).val < 2048 from h0)]
    by_cases h1 : q.val < 4096
    · rw [dif_pos (show (Cert.Spec.col (ix2 u q)).val < 4096 from h1)]
      exact P 1 (by show 1 < 4; omega) S2048 s1 rfl rfl 2048 rfl
        (ix1 (⟨q.val - 2048, by omega⟩ : Fin 2048)) (side _) (by show 2048 + (q.val - 2048) = q.val; omega)
    · rw [dif_neg (show ¬ (Cert.Spec.col (ix2 u q)).val < 4096 from h1)]
      by_cases h2 : q.val < 6144
      · rw [dif_pos (show (Cert.Spec.col (ix2 u q)).val < 6144 from h2)]
        exact P 2 (by show 2 < 4; omega) S2048 s2 rfl rfl 4096 rfl
          (ix1 (⟨q.val - 4096, by omega⟩ : Fin 2048)) (side _) (by show 4096 + (q.val - 4096) = q.val; omega)
      · rw [dif_neg (show ¬ (Cert.Spec.col (ix2 u q)).val < 6144 from h2)]
        exact P 3 (by show 3 < 4; omega) S2048 s3 rfl rfl 6144 rfl
          (ix1 (⟨q.val - 6144, by omega⟩ : Fin 2048)) (side _) (by show 6144 + (q.val - 6144) = q.val; omega)

/-! # The three arrays the host operations build before the first pallas_call, over the extended reals -/

variable (m : (ℓ : Loc nD τ sig) → Buf (Elt Ideal) ℓ) (c : Dev nD)

/-- The left operand is `[x | h]`. -/
theorem host_v2 :
    (StableHlo.after (hostOps0 (F := Ideal)) (fun b => m (c, b)) (Proc.devRef .tc main_v2) : S4096x4096.Idx → EReal)
      = Cert.Spec.catCols (m ((c : Thread nD τ).loc main_arg0)) (m ((c : Thread nD τ).loc main_arg1)) := by
  -- both inputs pass through the change of format unchanged, then sit side by side
  rw [← cols2_eq _ _ Facts₀.concatenates_S4096x2048_S4096x2048_S4096x4096_d1]
  simp only [hostOps0]; after_results; rfl

/-- The right operand is the four gates' blocks side by side, each `Wxᵀ` on top of `Whᵀ`. -/
theorem host_v23 :
    (StableHlo.after (hostOps0 (F := Ideal)) (fun b => m (c, b)) (Proc.devRef .tc main_v23) : S4096x8192.Idx → EReal)
      = Cert.Spec.wAll (Cert.Spec.wBlock (m ((c : Thread nD τ).loc main_arg3)) (m ((c : Thread nD τ).loc main_arg5)))
          (Cert.Spec.wBlock (m ((c : Thread nD τ).loc main_arg7)) (m ((c : Thread nD τ).loc main_arg9)))
          (Cert.Spec.wBlock (m ((c : Thread nD τ).loc main_arg11)) (m ((c : Thread nD τ).loc main_arg13)))
          (Cert.Spec.wBlock (m ((c : Thread nD τ).loc main_arg15)) (m ((c : Thread nD τ).loc main_arg17))) := by
  -- the four blocks side by side, each block two transposed matrices one on top of the other
  rw [← cols4_eq _ _ _ _ Facts₀.concatenates_S4096x2048_S4096x2048_S4096x2048_S4096x2048_S4096x8192_d1,
    ← rows2T_eq (m ((c : Thread nD τ).loc main_arg3)) (m ((c : Thread nD τ).loc main_arg5))
        Facts₀.transposes_S2048x2048_S2048x2048_1_0 Facts₀.concatenates_S2048x2048_S2048x2048_S4096x2048_d0,
    ← rows2T_eq (m ((c : Thread nD τ).loc main_arg7)) (m ((c : Thread nD τ).loc main_arg9))
        Facts₀.transposes_S2048x2048_S2048x2048_1_0 Facts₀.concatenates_S2048x2048_S2048x2048_S4096x2048_d0,
    ← rows2T_eq (m ((c : Thread nD τ).loc main_arg11)) (m ((c : Thread nD τ).loc main_arg13))
        Facts₀.transposes_S2048x2048_S2048x2048_1_0 Facts₀.concatenates_S2048x2048_S2048x2048_S4096x2048_d0,
    ← rows2T_eq (m ((c : Thread nD τ).loc main_arg15)) (m ((c : Thread nD τ).loc main_arg17))
        Facts₀.transposes_S2048x2048_S2048x2048_1_0 Facts₀.concatenates_S2048x2048_S2048x2048_S4096x2048_d0]
  simp only [hostOps0]; after_results; rfl

/-- The bias row is the four gates' summed biases end to end. -/
theorem host_v29 :
    (StableHlo.after (hostOps0 (F := Ideal)) (fun b => m (c, b)) (Proc.devRef .tc main_v29) : S1x8192.Idx → EReal)
      = Cert.Spec.biasAll (Cert.Spec.biasSum (m ((c : Thread nD τ).loc main_arg4)) (m ((c : Thread nD τ).loc main_arg6)))
          (Cert.Spec.biasSum (m ((c : Thread nD τ).loc main_arg8)) (m ((c : Thread nD τ).loc main_arg10)))
          (Cert.Spec.biasSum (m ((c : Thread nD τ).loc main_arg12)) (m ((c : Thread nD τ).loc main_arg14)))
          (Cert.Spec.biasSum (m ((c : Thread nD τ).loc main_arg16)) (m ((c : Thread nD τ).loc main_arg18))) := by
  -- the four entrywise sums end to end, the vector then read as a matrix of one row
  rw [← row4_eq _ _ _ _ Facts₀.concatenates_S2048_S2048_S2048_S2048_S8192_d0 Facts₀.shapeCasts_S8192_S1x8192]
  simp only [hostOps0]; after_results; rfl

end Cert.KernelIdeal.Val

end
-- ==== Proof.Bridge.lean ====
import proofs.«177083_j81518479278547_1_alg».proof.Proof.Spec
import Mathlib.Algebra.BigOperators.Fin
import Mathlib.Algebra.BigOperators.Group.Finset.Basic

noncomputable section

namespace Cert.Spec

open Idealize.ShloMosaic Idealize.ShloMosaic.ValueIdx
open scoped BigOperators

/-! # The fused pre-activation is the four gates' pre-activations

Only the commutative-monoid laws of addition on the extended reals are used (a sum over 4096 split into four tiles, a tile
of `[x | h]` against the stacked weights being a tile of `x · Wxᵀ` or of `h · Whᵀ`, and `(A + bx) + (C + bh) = (A + C) + (bx + bh)`):
no finiteness. -/

/-! ## Coordinates of an index built from its coordinates -/

@[simp] theorem row_ix2 {n0 n1 : Nat} (a : Fin n0) (b : Fin n1) : row (ix2 a b) = a := rfl
@[simp] theorem col_ix2 {n0 n1 : Nat} (a : Fin n0) (b : Fin n1) : col (ix2 a b) = b := rfl
/-- Every matrix index is the index of its row and its column. -/
theorem ix2_row_col {n0 n1 : Nat} (i : (⟨2, ![n0, n1]⟩ : Shape).Idx) : ix2 (row i) (col i) = i := (eq_ix2 i).symm

/-! ## Addition only -/

/-- A sum over 2048 is the sum over its lower 1024 plus the sum over its upper 1024. -/
theorem sum_halves (f : Fin 2048 → EReal) :
    ∑ k : Fin 2048, f k
      = (∑ kk : Fin 1024, f ⟨kk.val, by omega⟩) + ∑ kk : Fin 1024, f ⟨1024 + kk.val, by omega⟩ :=
  Fin.sum_univ_add (a := 1024) (b := 1024) f

/-- Zero, two tiles of the first product, two tiles of the second, then the summed bias: regrouped as the two linear maps. -/
theorem regroup (a0 a1 c0 c1 p q : EReal) :
    ((((0 + a0) + a1) + c0) + c1) + (p + q) = ((a0 + a1) + p) + ((c0 + c1) + q) := by
  rw [zero_add, add_assoc (a0 + a1) c0 c1, add_add_add_comm]

/-! ## Reading the arrays built before the first call -/

section Reads

variable (x h : A2 4096 2048)

/-- A column of `[x | h]` in the left half is that column of `x`. -/
theorem catCols_left (r : Fin 4096) (j : Fin 4096) (d : Fin 2048) (hj : j.val = d.val) :
    catCols x h (ix2 r j) = x (ix2 r d) := by
  unfold catCols
  refine (dif_pos (by show j.val < 2048; omega)).trans ?_
  exact congrArg (fun e => x (ix2 r e)) (Fin.ext hj)

/-- A column of `[x | h]` in the right half is that column, less 2048, of `h`. -/
theorem catCols_right (r : Fin 4096) (j : Fin 4096) (d : Fin 2048) (hj : j.val = 2048 + d.val) :
    catCols x h (ix2 r j) = h (ix2 r d) := by
  unfold catCols
  refine (dif_neg (by show ¬ j.val < 2048; omega)).trans ?_
  exact congrArg (fun e => h (ix2 r e)) (Fin.ext (by show j.val - 2048 = d.val; omega))

end Reads

/-- A row of a gate's weight block in the upper half is a column of `Wx`, read transposed. -/
theorem wBlock_top (wx wh : A2 2048 2048) (j : Fin 4096) (n k : Fin 2048) (hj : j.val = k.val) :
    wBlock wx wh (ix2 j n) = wx (ix2 n k) := by
  unfold wBlock
  refine (dif_pos (by show j.val < 2048; omega)).trans ?_
  exact congrArg (fun e => wx (ix2 n e)) (Fin.ext hj)

/-- A row of a gate's weight block in the lower half is a column of `Wh`, read transposed. -/
theorem wBlock_bot (wx wh : A2 2048 2048) (j : Fin 4096) (n k : Fin 2048) (hj : j.val = 2048 + k.val) :
    wBlock wx wh (ix2 j n) = wh (ix2 n k) := by
  unfold wBlock
  refine (dif_neg (by show ¬ j.val < 2048; omega)).trans ?_
  exact congrArg (fun e => wh (ix2 n e)) (Fin.ext (by show j.val - 2048 = k.val; omega))

section Stacked

variable (g0 g1 g2 g3 : A2 4096 2048) (s0 s1 s2 s3 : A1 2048)

/-- Columns `0 … 2047` of the stacked weights are the first gate's block. -/
theorem wAll_0 (j : Fin 4096) (c : Fin 8192) (n : Fin 2048) (hc : c.val = n.val) :
    wAll g0 g1 g2 g3 (ix2 j c) = g0 (ix2 j n) := by
  unfold wAll
  refine (dif_pos (by show c.val < 2048; omega)).trans ?_
  exact congrArg (fun e => g0 (ix2 j e)) (Fin.ext hc)

/-- Columns `2048 … 4095` of the stacked weights are the second gate's block. -/
theorem wAll_1 (j : Fin 4096) (c : Fin 8192) (n : Fin 2048) (hc : c.val = 2048 + n.val) :
    wAll g0 g1 g2 g3 (ix2 j c) = g1 (ix2 j n) := by
  unfold wAll
  refine (dif_neg (by show ¬ c.val < 2048; omega)).trans ?_
  refine (dif_pos (by show c.val < 4096; omega)).trans ?_
  exact congrArg (fun e => g1 (ix2 j e)) (Fin.ext (by show c.val - 2048 = n.val; omega))

/-- Columns `4096 … 6143` of the stacked weights are the third gate's block. -/
theorem wAll_2 (j : Fin 4096) (c : Fin 8192) (n : Fin 2048) (hc : c.val = 4096 + n.val) :
    wAll g0 g1 g2 g3 (ix2 j c) = g2 (ix2 j n) := by
  unfold wAll
  refine (dif_neg (by show ¬ c.val < 2048; omega)).trans ?_
  refine (dif_neg (by show ¬ c.val < 4096; omega)).trans ?_
  refine (dif_pos (by show c.val < 6144; omega)).trans ?_
  exact congrArg (fun e => g2 (ix2 j e)) (Fin.ext (by show c.val - 4096 = n.val; omega))

/-- Columns `6144 … 8191` of the stacked weights are the fourth gate's block. -/
theorem wAll_3 (j : Fin 4096) (c : Fin 8192) (n : Fin 2048) (hc : c.val = 6144 + n.val) :
    wAll g0 g1 g2 g3 (ix2 j c) = g3 (ix2 j n) := by
  unfold wAll
  refine (dif_neg (by show ¬ c.val < 2048; omega)).trans ?_
  refine (dif_neg (by show ¬ c.val < 4096; omega)).trans ?_
  refine (dif_neg (by show ¬ c.val < 6144; omega)).trans ?_
  exact congrArg (fun e => g3 (ix2 j e)) (Fin.ext (by show c.val - 6144 = n.val; omega))

/-- Entries `0 … 2047` of the bias row are the first gate's summed bias. -/
theorem biasAll_0 (c : Fin 8192) (n : Fin 2048) (hc : c.val = n.val) :
    biasAll s0 s1 s2 s3 (ix2 0 c) = s0 (ix1 n) := by
  unfold biasAll
  refine (dif_pos (by show c.val < 2048; omega)).trans ?_
  exact congrArg (fun e => s0 (ix1 e)) (Fin.ext hc)

/-- Entries `2048 … 4095` of the bias row are the second gate's summed bias. -/
theorem biasAll_1 (c : Fin 8192) (n : Fin 2048) (hc : c.val = 2048 + n.val) :
    biasAll s0 s1 s2 s3 (ix2 0 c) = s1 (ix1 n) := by
  unfold biasAll
  refine (dif_neg (by show ¬ c.val < 2048; omega)).trans ?_
  refine (dif_pos (by show c.val < 4096; omega)).trans ?_
  exact congrArg (fun e => s1 (ix1 e)) (Fin.ext (by show c.val - 2048 = n.val; omega))

/-- Entries `4096 … 6143` of the bias row are the third gate's summed bias. -/
theorem biasAll_2 (c : Fin 8192) (n : Fin 2048) (hc : c.val = 4096 + n.val) :
    biasAll s0 s1 s2 s3 (ix2 0 c) = s2 (ix1 n) := by
  unfold biasAll
  refine (dif_neg (by show ¬ c.val < 2048; omega)).trans ?_
  refine (dif_neg (by show ¬ c.val < 4096; omega)).trans ?_
  refine (dif_pos (by show c.val < 6144; omega)).trans ?_
  exact congrArg (fun e => s2 (ix1 e)) (Fin.ext (by show c.val - 4096 = n.val; omega))

/-- Entries `6144 … 8191` of the bias row are the fourth gate's summed bias. -/
theorem biasAll_3 (c : Fin 8192) (n : Fin 2048) (hc : c.val = 6144 + n.val) :
    biasAll s0 s1 s2 s3 (ix2 0 c) = s3 (ix1 n) := by
  unfold biasAll
  refine (dif_neg (by show ¬ c.val < 2048; omega)).trans ?_
  refine (dif_neg (by show ¬ c.val < 4096; omega)).trans ?_
  refine (dif_neg (by show ¬ c.val < 6144; omega)).trans ?_
  exact congrArg (fun e => s3 (ix1 e)) (Fin.ext (by show c.val - 6144 = n.val; omega))

end Stacked

/-! ## One gate, from what its column of the stacked operands reads -/

section Gate

variable (x h : A2 4096 2048)

/-- A tile lying in the left half of `[x | h]`: a run of 1024 terms of `x · Wxᵀ`, indexed by `idx`. -/
theorem tileDot_left (b : A2 4096 8192) (wx : A2 2048 2048) (r : Fin 4096) (c : Fin 8192) (n : Fin 2048)
    (hx : ∀ (j : Fin 4096) (k : Fin 2048), j.val = k.val → b (ix2 j c) = wx (ix2 n k))
    (t : Fin 4) (idx : Fin 1024 → Fin 2048) (hidx : ∀ kk : Fin 1024, 1024 * t.val + kk.val = (idx kk).val) :
    tileDot (catCols x h) b t r c = ∑ kk : Fin 1024, x (ix2 r (idx kk)) * wx (ix2 n (idx kk)) := by
  unfold tileDot
  refine Finset.sum_congr rfl fun kk _ => ?_
  exact congrArg₂ (· * ·) (catCols_left x h r _ (idx kk) (hidx kk)) (hx _ (idx kk) (hidx kk))

/-- A tile lying in the right half of `[x | h]`: a run of 1024 terms of `h · Whᵀ`, indexed by `idx`. -/
theorem tileDot_right (b : A2 4096 8192) (wh : A2 2048 2048) (r : Fin 4096) (c : Fin 8192) (n : Fin 2048)
    (hh : ∀ (j : Fin 4096) (k : Fin 2048), j.val = 2048 + k.val → b (ix2 j c) = wh (ix2 n k))
    (t : Fin 4) (idx : Fin 1024 → Fin 2048) (hidx : ∀ kk : Fin 1024, 1024 * t.val + kk.val = 2048 + (idx kk).val) :
    tileDot (catCols x h) b t r c = ∑ kk : Fin 1024, h (ix2 r (idx kk)) * wh (ix2 n (idx kk)) := by
  unfold tileDot
  refine Finset.sum_congr rfl fun kk _ => ?_
  exact congrArg₂ (· * ·) (catCols_right x h r _ (idx kk) (hidx kk)) (hh _ (idx kk) (hidx kk))

/-- If column `c` of the stacked weights reads `Wx[n, ·]` on its upper 2048 rows and `Wh[n, ·]` on its lower 2048, and entry
    `c` of the bias row is `bx[n] + bh[n]`, then entry `(r, c)` of the fused pre-activation is the gate's pre-activation at
    `(r, n)`: tiles 0 and 1 are the two halves of `x[r, ·] · Wx[n, ·]`, tiles 2 and 3 the two halves of `h[r, ·] · Wh[n, ·]`. -/
theorem preact_gate (b : A2 4096 8192) (bias : A2 1 8192) (wx wh : A2 2048 2048) (bx bh : A1 2048)
    (r : Fin 4096) (c : Fin 8192) (n : Fin 2048)
    (hx : ∀ (j : Fin 4096) (k : Fin 2048), j.val = k.val → b (ix2 j c) = wx (ix2 n k))
    (hh : ∀ (j : Fin 4096) (k : Fin 2048), j.val = 2048 + k.val → b (ix2 j c) = wh (ix2 n k))
    (hb : bias (ix2 0 c) = bx (ix1 n) + bh (ix1 n)) :
    preact (catCols x h) b bias (ix2 r c) = gatePre x h wx bx wh bh (ix2 r n) := by
  have t0 := tileDot_left x h b wx r c n hx 0 (fun kk => ⟨kk.val, by omega⟩)
    (fun kk => by show 1024 * 0 + kk.val = kk.val; omega)
  have t1 := tileDot_left x h b wx r c n hx 1 (fun kk => ⟨1024 + kk.val, by omega⟩)
    (fun kk => by show 1024 * 1 + kk.val = 1024 + kk.val; omega)
  have t2 := tileDot_right x h b wh r c n hh 2 (fun kk => ⟨kk.val, by omega⟩)
    (fun kk => by show 1024 * 2 + kk.val = 2048 + kk.val; omega)
  have t3 := tileDot_right x h b wh r c n hh 3 (fun kk => ⟨1024 + kk.val, by omega⟩)
    (fun kk => by show 1024 * 3 + kk.val = 2048 + (1024 + kk.val); omega)
  show ((((0 + tileDot (catCols x h) b 0 r c) + tileDot (catCols x h) b 1 r c) + tileDot (catCols x h) b 2 r c)
      + tileDot (catCols x h) b 3 r c) + bias (ix2 0 c)
    = ((∑ k : Fin 2048, x (ix2 r k) * wx (ix2 n k)) + bx (ix1 n))
      + ((∑ k : Fin 2048, h (ix2 r k) * wh (ix2 n k)) + bh (ix1 n))
  rw [t0, t1, t2, t3, hb, sum_halves (fun k => x (ix2 r k) * wx (ix2 n k)),
    sum_halves (fun k => h (ix2 r k) * wh (ix2 n k))]
  exact regroup _ _ _ _ _ _

end Gate

variable (x h : A2 4096 2048)
variable (wx0 wh0 wx1 wh1 wx2 wh2 wx3 wh3 : A2 2048 2048) (bx0 bh0 bx1 bh1 bx2 bh2 bx3 bh3 : A1 2048)

/-- The fused operands. -/
abbrev fusedPre : A2 4096 8192 :=
  preact (catCols x h) (wAll (wBlock wx0 wh0) (wBlock wx1 wh1) (wBlock wx2 wh2) (wBlock wx3 wh3))
    (biasAll (biasSum bx0 bh0) (biasSum bx1 bh1) (biasSum bx2 bh2) (biasSum bx3 bh3))

theorem fusedPre_gate0 (r : Fin 4096) (n : Fin 2048) :
    fusedPre x h wx0 wh0 wx1 wh1 wx2 wh2 wx3 wh3 bx0 bh0 bx1 bh1 bx2 bh2 bx3 bh3 (ix2 r ⟨n.val, by omega⟩)
      = gatePre x h wx0 bx0 wh0 bh0 (ix2 r n) :=
  preact_gate x h _ _ wx0 wh0 bx0 bh0 r _ n
    (fun j k hj => (wAll_0 _ _ _ _ j _ n rfl).trans (wBlock_top wx0 wh0 j n k hj))
    (fun j k hj => (wAll_0 _ _ _ _ j _ n rfl).trans (wBlock_bot wx0 wh0 j n k hj))
    (biasAll_0 _ _ _ _ _ n rfl)
theorem fusedPre_gate1 (r : Fin 4096) (n : Fin 2048) :
    fusedPre x h wx0 wh0 wx1 wh1 wx2 wh2 wx3 wh3 bx0 bh0 bx1 bh1 bx2 bh2 bx3 bh3 (ix2 r ⟨2048 + n.val, by omega⟩)
      = gatePre x h wx1 bx1 wh1 bh1 (ix2 r n) :=
  preact_gate x h _ _ wx1 wh1 bx1 bh1 r _ n
    (fun j k hj => (wAll_1 _ _ _ _ j _ n rfl).trans (wBlock_top wx1 wh1 j n k hj))
    (fun j k hj => (wAll_1 _ _ _ _ j _ n rfl).trans (wBlock_bot wx1 wh1 j n k hj))
    (biasAll_1 _ _ _ _ _ n rfl)
theorem fusedPre_gate2 (r : Fin 4096) (n : Fin 2048) :
    fusedPre x h wx0 wh0 wx1 wh1 wx2 wh2 wx3 wh3 bx0 bh0 bx1 bh1 bx2 bh2 bx3 bh3 (ix2 r ⟨4096 + n.val, by omega⟩)
      = gatePre x h wx2 bx2 wh2 bh2 (ix2 r n) :=
  preact_gate x h _ _ wx2 wh2 bx2 bh2 r _ n
    (fun j k hj => (wAll_2 _ _ _ _ j _ n rfl).trans (wBlock_top wx2 wh2 j n k hj))
    (fun j k hj => (wAll_2 _ _ _ _ j _ n rfl).trans (wBlock_bot wx2 wh2 j n k hj))
    (biasAll_2 _ _ _ _ _ n rfl)
theorem fusedPre_gate3 (r : Fin 4096) (n : Fin 2048) :
    fusedPre x h wx0 wh0 wx1 wh1 wx2 wh2 wx3 wh3 bx0 bh0 bx1 bh1 bx2 bh2 bx3 bh3 (ix2 r ⟨6144 + n.val, by omega⟩)
      = gatePre x h wx3 bx3 wh3 bh3 (ix2 r n) :=
  preact_gate x h _ _ wx3 wh3 bx3 bh3 r _ n
    (fun j k hj => (wAll_3 _ _ _ _ j _ n rfl).trans (wBlock_top wx3 wh3 j n k hj))
    (fun j k hj => (wAll_3 _ _ _ _ j _ n rfl).trans (wBlock_bot wx3 wh3 j n k hj))
    (biasAll_3 _ _ _ _ _ n rfl)

/-- The kernel's new cell state is the reference's (gate order in the fused array: input, forget, cell, output). -/
theorem cnew_fused (cc : A2 4096 2048) :
    cnew (fusedPre x h wx0 wh0 wx1 wh1 wx2 wh2 wx3 wh3 bx0 bh0 bx1 bh1 bx2 bh2 bx3 bh3) cc
      = refC (gatePre x h wx0 bx0 wh0 bh0) (gatePre x h wx1 bx1 wh1 bh1) (gatePre x h wx2 bx2 wh2 bh2) cc := by
  funext i
  unfold cnew refC
  rw [fusedPre_gate0, fusedPre_gate1, fusedPre_gate2, ix2_row_col]

/-- The kernel's new hidden state is the reference's. -/
theorem hnew_fused (cc : A2 4096 2048) :
    hnew (fusedPre x h wx0 wh0 wx1 wh1 wx2 wh2 wx3 wh3 bx0 bh0 bx1 bh1 bx2 bh2 bx3 bh3) cc
      = refH (gatePre x h wx0 bx0 wh0 bh0) (gatePre x h wx1 bx1 wh1 bh1) (gatePre x h wx2 bx2 wh2 bh2) (gatePre x h wx3 bx3 wh3 bh3) cc := by
  funext i
  unfold hnew refH
  rw [fusedPre_gate3, cnew_fused, ix2_row_col]

end Cert.Spec

end
-- ==== Proof.KI.Result.lean ====
import proofs.«177083_j81518479278547_1_alg».proof.Proof.KI.Run
import proofs.«177083_j81518479278547_1_alg».proof.Proof.KI.Val0
import proofs.«177083_j81518479278547_1_alg».proof.Proof.KI.Val1
import proofs.«177083_j81518479278547_1_alg».proof.Proof.KI.Host
import proofs.«177083_j81518479278547_1_alg».proof.Proof.Bridge

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open scoped BigOperators
open Cert.KernelIdeal Cert.KernelIdeal.Gen Cert.KernelIdeal.Hand Cert.Spec

/-! # The program's two results as the LSTM cell's functions of its arguments, over the extended reals

The second call's outputs are `hnew` / `cnew` of the first call's result array and the old cell state; the first call's
result array is `preact` of the three arrays the host operations built, which are `[x | h]`, the stacked weights and the
bias row; and the fused pre-activation is the four gates' pre-activations. -/

variable (m : (ℓ : Loc nD τ sig) → Buf (Elt Ideal) ℓ) (c : Dev nD)

theorem preact_congr {a a' : A2 4096 4096} {b b' : A2 4096 8192} {s s' : A2 1 8192} (ha : a = a') (hb : b = b') (hs : s = s') :
    preact a b s = preact a' b' s' := by subst ha hb hs; rfl

/-- What the second call finds in the pre-activation array: the fused pre-activation of the arguments. -/
theorem found_preact :
    (E2 (F := Ideal) m c main_v30 : A2 4096 8192)
      = fusedPre (m ((c : Thread nD τ).loc main_arg0)) (m ((c : Thread nD τ).loc main_arg1))
          (m ((c : Thread nD τ).loc main_arg3)) (m ((c : Thread nD τ).loc main_arg5)) (m ((c : Thread nD τ).loc main_arg7)) (m ((c : Thread nD τ).loc main_arg9)) (m ((c : Thread nD τ).loc main_arg11)) (m ((c : Thread nD τ).loc main_arg13)) (m ((c : Thread nD τ).loc main_arg15)) (m ((c : Thread nD τ).loc main_arg17))
          (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg14)) (m ((c : Thread nD τ).loc main_arg16)) (m ((c : Thread nD τ).loc main_arg18)) :=
  (E2_main_v30 m c).trans <| (preact_arr (E1 m) c).trans <|
    preact_congr (host_v2 m c) (host_v23 m c) (host_v29 m c)

theorem hnew_congr {p p' : A2 4096 8192} {q q' : A2 4096 2048} (hp : p = p') (hq : q = q') : hnew p q = hnew p' q' := by
  subst hp hq; rfl
theorem cnew_congr {p p' : A2 4096 8192} {q q' : A2 4096 2048} (hp : p = p') (hq : q = q') : cnew p q = cnew p' q' := by
  subst hp hq; rfl

/-- The program's first result (the new hidden state). -/
theorem kernel_hidden :
    (B3 (F := Ideal) m c (Proc.devRef .tc main_v31_0) : A2 4096 2048)
      = refH (gatePre (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (gatePre (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)))
          (gatePre (m ((c : Thread nD τ).loc main_arg0)) (m ((c : Thread nD τ).loc main_arg1)) (m ((c : Thread nD τ).loc main_arg11)) (m ((c : Thread nD τ).loc main_arg12)) (m ((c : Thread nD τ).loc main_arg13)) (m ((c : Thread nD τ).loc main_arg14))) (gatePre (m ((c : Thread nD τ).loc main_arg0)) (m ((c : Thread nD τ).loc main_arg1)) (m ((c : Thread nD τ).loc main_arg15)) (m ((c : Thread nD τ).loc main_arg16)) (m ((c : Thread nD τ).loc main_arg17)) (m ((c : Thread nD τ).loc main_arg18))) (m ((c : Thread nD τ).loc main_arg2)) :=
  (B3_main_v31_0 m c).trans <| (hnew_arr (E2 m) c).trans <|
    (hnew_congr (found_preact m c) (E2_main_arg2 m c)).trans (hnew_fused _ _ _ _ _ _ _ _ _ _ _ _ _ _ _ _ _ _ _)

/-- The program's second result (the new cell state). -/
theorem kernel_cell :
    (B3 (F := Ideal) m c (Proc.devRef .tc main_v31_1) : A2 4096 2048)
      = refC (gatePre (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (gatePre (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)))
          (gatePre (m ((c : Thread nD τ).loc main_arg0)) (m ((c : Thread nD τ).loc main_arg1)) (m ((c : Thread nD τ).loc main_arg11)) (m ((c : Thread nD τ).loc main_arg12)) (m ((c : Thread nD τ).loc main_arg13)) (m ((c : Thread nD τ).loc main_arg14))) (m ((c : Thread nD τ).loc main_arg2)) :=
  (B3_main_v31_1 m c).trans <| (cnew_arr (E2 m) c).trans <|
    (cnew_congr (found_preact m c) (E2_main_arg2 m c)).trans (cnew_fused _ _ _ _ _ _ _ _ _ _ _ _ _ _ _ _ _ _ _)

end Cert.KernelIdeal.Val

end
-- ==== Proof.RefSide.lean ====
import proofs.«177083_j81518479278547_1_alg».proof.Proof.Gen.ReferenceIdeal.Read
import proofs.«177083_j81518479278547_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Idealize.ShloMosaic.Pipeline (Dat)
open scoped BigOperators
open Cert.ReferenceIdeal Cert.ReferenceIdeal.Read Cert.Spec

/-! # The reference's two results as the LSTM cell's functions of its arguments, over the extended reals -/

variable (x0 x1 x2 : FVec Ideal S4096x2048 .f32)
variable (x3 x5 x7 x9 x11 x13 x15 x17 : FVec Ideal S2048x2048 .f32) (x4 x6 x8 x10 x12 x14 x16 x18 : FVec Ideal S2048 .f32)

/-! The reference computes each of the four gates (input, forget, cell candidate, output) by itself: the map of `x`
(`x · Wxᵀ + bx`, the weight transposed first, the bias broadcast along the rows) plus the map of `h`. Three gates then
pass through the sigmoid, spelled `1 / (1 + exp (-z))`, the candidate through `tanh`, and the two results are
`c' = σ(f)·c + σ(i)·tanh(g)` and `h' = σ(o)·tanh(c')`. -/

/-! ## Two facts about single entries -/

/-- The f32 word of `1.0` denotes the extended real one. -/
theorem one_word : Ideal.ofBits .f32 0x3F800000#32 = (1 : EReal) := by
  simp [Ideal.ofBits, Ideal.ieee, -EReal.coe_mul]; norm_num

/-- The sigmoid as the reference spells it, one over one plus the exponential of the negation, is the logistic
function. -/
theorem sigmoid_spelled (z : EReal) :
    Ideal.div (Ideal.ofBits .f32 0x3F800000#32) (Ideal.ofBits .f32 0x3F800000#32 + Ideal.exp (-z)) = Ideal.logistic z := by
  rw [one_word]; rfl

/-- A sum over `k` of products whose left factor is read in the row of `i` at `k` and whose right factor is the weight's
entry `(col i, k)`, plus the bias at `col i`, is the entry at `i` of the linear map `x · wᵀ + b`. -/
theorem lin_of_reads (x : A2 4096 2048) (w wt : A2 2048 2048) (b : A1 2048) (i : S4096x2048.Idx)
    (l : Fin 2048 → S4096x2048.Idx) (r : Fin 2048 → S2048x2048.Idx) (c : S2048.Idx)
    (hl : ∀ k, l k = ix2 (row i) k) (hr : ∀ k, wt (r k) = w (ix2 (col i) k)) (hc : c = ix1 (col i)) :
    (∑ k : Fin 2048, x (l k) * wt (r k)) + b c = lin x w b i := by
  subst hc
  unfold lin
  refine congrArg (· + b (ix1 (col i))) (Finset.sum_congr rfl fun k _ => ?_)
  rw [hl k, hr k]

/-! ## Where the reference's composed index functions read -/

/-- The left operand of a product entry is read in the row of `i`, at the contracted position `k`. -/
theorem left_read (i : S4096x2048.Idx) (k : Fin 2048) : lidx_main_v1 i k = ix2 (row i) k :=
  funext fun a => by match a with | ⟨0, _⟩ => rfl | ⟨1, _⟩ => rfl

/-- The transposed weight at `(k, col i)` is the weight at `(col i, k)`. -/
theorem weight_read (i : S4096x2048.Idx) (k : Fin 2048) : idx_main_v0 (ridx_main_v1 i k) = ix2 (col i) k :=
  funext fun a => by match a with | ⟨0, _⟩ => rfl | ⟨1, _⟩ => rfl

/-- The bias, made a row and then repeated down the rows, is read at the column of `i`. -/
theorem bias_read (i : S4096x2048.Idx) : idx_main_v2 (idx_main_v3 i) = ix1 (col i) :=
  funext fun a => by match a with | ⟨0, _⟩ => rfl

/-! ## The input gate -/

/-- The map of `x` for the input gate. -/
theorem lin_x_in (i : S4096x2048.Idx) : val_main_v4 (F := Ideal) x0 x3 x4 i = lin x0 x3 x4 i := by
  rw [val_main_v4_apply, val_main_v1_apply, val_main_v3_apply, val_main_v2_apply]
  exact lin_of_reads x0 x3 (val_main_v0 (F := Ideal) x3) x4 i (lidx_main_v1 i) (ridx_main_v1 i) (idx_main_v2 (idx_main_v3 i))
    (left_read i) (fun k => (val_main_v0_apply (F := Ideal) x3 _).trans (congrArg x3 (weight_read i k))) (bias_read i)

/-- The map of `h` for the input gate. -/
theorem lin_h_in (i : S4096x2048.Idx) : val_main_v9 (F := Ideal) x1 x5 x6 i = lin x1 x5 x6 i := by
  rw [val_main_v9_apply, val_main_v6_apply, val_main_v8_apply, val_main_v7_apply]
  exact lin_of_reads x1 x5 (val_main_v5 (F := Ideal) x5) x6 i (lidx_main_v6 i) (ridx_main_v6 i) (idx_main_v7 (idx_main_v8 i))
    (left_read i) (fun k => (val_main_v5_apply (F := Ideal) x5 _).trans (congrArg x5 (weight_read i k))) (bias_read i)

/-- The input gate's pre-activation. -/
theorem pre_in (i : S4096x2048.Idx) :
    val_main_v10 (F := Ideal) x0 x1 x3 x4 x5 x6 i = gatePre x0 x1 x3 x4 x5 x6 i := by
  rw [val_main_v10_apply, lin_x_in, lin_h_in]; rfl

/-- The input gate: the logistic function of its pre-activation. -/
theorem sig_in (i : S4096x2048.Idx) :
    val_main_v16 (F := Ideal) x0 x1 x3 x4 x5 x6 i = Ideal.logistic (gatePre x0 x1 x3 x4 x5 x6 i) := by
  rw [val_main_v16_apply, val_main_v15_apply, val_main_cst_0_apply, val_main_v14_apply, val_main_v13_apply,
    val_main_cst_apply, val_main_v12_apply, val_main_v11_apply, pre_in]
  exact sigmoid_spelled _

/-! ## The forget gate -/

/-- The map of `x` for the forget gate. -/
theorem lin_x_forget (i : S4096x2048.Idx) : val_main_v21 (F := Ideal) x0 x7 x8 i = lin x0 x7 x8 i := by
  rw [val_main_v21_apply, val_main_v18_apply, val_main_v20_apply, val_main_v19_apply]
  exact lin_of_reads x0 x7 (val_main_v17 (F := Ideal) x7) x8 i (lidx_main_v18 i) (ridx_main_v18 i) (idx_main_v19 (idx_main_v20 i))
    (left_read i) (fun k => (val_main_v17_apply (F := Ideal) x7 _).trans (congrArg x7 (weight_read i k))) (bias_read i)

/-- The map of `h` for the forget gate. -/
theorem lin_h_forget (i : S4096x2048.Idx) : val_main_v26 (F := Ideal) x1 x9 x10 i = lin x1 x9 x10 i := by
  rw [val_main_v26_apply, val_main_v23_apply, val_main_v25_apply, val_main_v24_apply]
  exact lin_of_reads x1 x9 (val_main_v22 (F := Ideal) x9) x10 i (lidx_main_v23 i) (ridx_main_v23 i) (idx_main_v24 (idx_main_v25 i))
    (left_read i) (fun k => (val_main_v22_apply (F := Ideal) x9 _).trans (congrArg x9 (weight_read i k))) (bias_read i)

/-- The forget gate's pre-activation. -/
theorem pre_forget (i : S4096x2048.Idx) :
    val_main_v27 (F := Ideal) x0 x1 x7 x8 x9 x10 i = gatePre x0 x1 x7 x8 x9 x10 i := by
  rw [val_main_v27_apply, lin_x_forget, lin_h_forget]; rfl

/-- The forget gate: the logistic function of its pre-activation. -/
theorem sig_forget (i : S4096x2048.Idx) :
    val_main_v33 (F := Ideal) x0 x1 x7 x8 x9 x10 i = Ideal.logistic (gatePre x0 x1 x7 x8 x9 x10 i) := by
  rw [val_main_v33_apply, val_main_v32_apply, val_main_cst_2_apply, val_main_v31_apply, val_main_v30_apply,
    val_main_cst_1_apply, val_main_v29_apply, val_main_v28_apply, pre_forget]
  exact sigmoid_spelled _

/-! ## The cell candidate -/

/-- The map of `x` for the cell candidate. -/
theorem lin_x_cand (i : S4096x2048.Idx) : val_main_v38 (F := Ideal) x0 x11 x12 i = lin x0 x11 x12 i := by
  rw [val_main_v38_apply, val_main_v35_apply, val_main_v37_apply, val_main_v36_apply]
  exact lin_of_reads x0 x11 (val_main_v34 (F := Ideal) x11) x12 i (lidx_main_v35 i) (ridx_main_v35 i) (idx_main_v36 (idx_main_v37 i))
    (left_read i) (fun k => (val_main_v34_apply (F := Ideal) x11 _).trans (congrArg x11 (weight_read i k))) (bias_read i)

/-- The map of `h` for the cell candidate. -/
theorem lin_h_cand (i : S4096x2048.Idx) : val_main_v43 (F := Ideal) x1 x13 x14 i = lin x1 x13 x14 i := by
  rw [val_main_v43_apply, val_main_v40_apply, val_main_v42_apply, val_main_v41_apply]
  exact lin_of_reads x1 x13 (val_main_v39 (F := Ideal) x13) x14 i (lidx_main_v40 i) (ridx_main_v40 i) (idx_main_v41 (idx_main_v42 i))
    (left_read i) (fun k => (val_main_v39_apply (F := Ideal) x13 _).trans (congrArg x13 (weight_read i k))) (bias_read i)

/-- The cell candidate's pre-activation. -/
theorem pre_cand (i : S4096x2048.Idx) :
    val_main_v44 (F := Ideal) x0 x1 x11 x12 x13 x14 i = gatePre x0 x1 x11 x12 x13 x14 i := by
  rw [val_main_v44_apply, lin_x_cand, lin_h_cand]; rfl

/-- The cell candidate: the hyperbolic tangent of its pre-activation. -/
theorem tanh_cand (i : S4096x2048.Idx) :
    val_main_v45 (F := Ideal) x0 x1 x11 x12 x13 x14 i = Ideal.tanh (gatePre x0 x1 x11 x12 x13 x14 i) := by
  rw [val_main_v45_apply, pre_cand]; rfl

/-! ## The output gate -/

/-- The map of `x` for the output gate. -/
theorem lin_x_out (i : S4096x2048.Idx) : val_main_v50 (F := Ideal) x0 x15 x16 i = lin x0 x15 x16 i := by
  rw [val_main_v50_apply, val_main_v47_apply, val_main_v49_apply, val_main_v48_apply]
  exact lin_of_reads x0 x15 (val_main_v46 (F := Ideal) x15) x16 i (lidx_main_v47 i) (ridx_main_v47 i) (idx_main_v48 (idx_main_v49 i))
    (left_read i) (fun k => (val_main_v46_apply (F := Ideal) x15 _).trans (congrArg x15 (weight_read i k))) (bias_read i)

/-- The map of `h` for the output gate. -/
theorem lin_h_out (i : S4096x2048.Idx) : val_main_v55 (F := Ideal) x1 x17 x18 i = lin x1 x17 x18 i := by
  rw [val_main_v55_apply, val_main_v52_apply, val_main_v54_apply, val_main_v53_apply]
  exact lin_of_reads x1 x17 (val_main_v51 (F := Ideal) x17) x18 i (lidx_main_v52 i) (ridx_main_v52 i) (idx_main_v53 (idx_main_v54 i))
    (left_read i) (fun k => (val_main_v51_apply (F := Ideal) x17 _).trans (congrArg x17 (weight_read i k))) (bias_read i)

/-- The output gate's pre-activation. -/
theorem pre_out (i : S4096x2048.Idx) :
    val_main_v56 (F := Ideal) x0 x1 x15 x16 x17 x18 i = gatePre x0 x1 x15 x16 x17 x18 i := by
  rw [val_main_v56_apply, lin_x_out, lin_h_out]; rfl

/-- The output gate: the logistic function of its pre-activation. -/
theorem sig_out (i : S4096x2048.Idx) :
    val_main_v62 (F := Ideal) x0 x1 x15 x16 x17 x18 i = Ideal.logistic (gatePre x0 x1 x15 x16 x17 x18 i) := by
  rw [val_main_v62_apply, val_main_v61_apply, val_main_cst_4_apply, val_main_v60_apply, val_main_v59_apply,
    val_main_cst_3_apply, val_main_v58_apply, val_main_v57_apply, pre_out]
  exact sigmoid_spelled _

/-! ## The two results -/

/-- The reference's second result (the new cell state). -/
theorem ref_cell :
    (val_main_v65 (F := Ideal) x0 x1 x2 x3 x4 x5 x6 x7 x8 x9 x10 x11 x12 x13 x14 : S4096x2048.Idx → EReal)
      = refC (gatePre x0 x1 x3 x4 x5 x6) (gatePre x0 x1 x7 x8 x9 x10) (gatePre x0 x1 x11 x12 x13 x14) x2 := by
  funext i
  rw [val_main_v65_apply, val_main_v63_apply, val_main_v64_apply, sig_forget, sig_in, tanh_cand]
  rfl

/-- The reference's first result (the new hidden state). -/
theorem ref_hidden :
    (val_main_v67 (F := Ideal) x0 x1 x2 x3 x4 x5 x6 x7 x8 x9 x10 x11 x12 x13 x14 x15 x16 x17 x18 : S4096x2048.Idx → EReal)
      = refH (gatePre x0 x1 x3 x4 x5 x6) (gatePre x0 x1 x7 x8 x9 x10) (gatePre x0 x1 x11 x12 x13 x14) (gatePre x0 x1 x15 x16 x17 x18) x2 := by
  funext i
  rw [val_main_v67_apply, sig_out, val_main_v66_apply, ref_cell]
  rfl

end Cert.ReferenceIdeal.RefValue

end
-- ==== Proof.lean ====
/-
  An LSTM cell: `c' = σ(f)·c + σ(i)·tanh(g)`, `h' = σ(o)·tanh(c')`, the four gates' pre-activations
  `x·Wx_gᵀ + bx_g + h·Wh_gᵀ + bh_g`. The kernel fuses the eight linear maps into one product `[x | h] · W` with `W` the four
  gates' blocks `[Wx_gᵀ ; Wh_gᵀ]` side by side (bf16 operands: the identity over the extended reals), summed tile by tile
  along the contracted axis into an accumulator that starts at zero, the two bias vectors of a gate added to each other
  first; a second call combines the gates row block by row block. The reference computes each linear map by itself and
  spells the logistic function as `1 / (1 + exp(-z))`, which over the extended reals is the kernel's logistic by
  definition. The two agree by the commutative-monoid laws of addition alone (Bridge.lean), so the precondition is never
  opened.

  The frames: @main is the host operations, the matrix product, the gate combine. Each call's body is run once per
  control case (KI/R0.lean, KI/R1.lean); the launch (KI/Run.lean) composes the three segments and reads every unscoped
  buffer back at the end, which gives both the frame (the arguments are written by nobody) and the two results as what
  the calls' write-backs left (KI/Val0.lean, KI/Val1.lean read those index by index; KI/Host.lean the arrays the host
  operations built; KI/Result.lean puts them together). The word-level program is the same text in another namespace,
  and its frame the same modules there (KB/).
-/
import proofs.«177083_j81518479278547_1_alg».proof.Defs
import proofs.«177083_j81518479278547_1_alg».proof.Proof.Gen.Kernel
import proofs.«177083_j81518479278547_1_alg».proof.Proof.Gen.KernelIdeal
import proofs.«177083_j81518479278547_1_alg».proof.Proof.Gen.ReferenceIdeal
import proofs.«177083_j81518479278547_1_alg».proof.Proof.Gen.Pre_finite_inputs
import proofs.«177083_j81518479278547_1_alg».proof.Proof.Gen.ReferenceIdeal.Run
import proofs.«177083_j81518479278547_1_alg».proof.Proof.KB.Run
import proofs.«177083_j81518479278547_1_alg».proof.Proof.KI.Run
import proofs.«177083_j81518479278547_1_alg».proof.Proof.KI.Result
import proofs.«177083_j81518479278547_1_alg».proof.Proof.RefSide

set_option maxRecDepth 16384

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

set_option maxHeartbeats 2000000 in
/-- Both programs end with the reference's two functions of the (agreeing) arguments. -/
theorem algebraic : Cert.algebraic_KernelIdeal_ReferenceIdeal := by
  intro m ρ m' ρ' _ hagree
  refine ⟨fun c => Cert.Spec.refH (Cert.Spec.gatePre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (Cert.Spec.gatePre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (Cert.Spec.gatePre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (Cert.Spec.gatePre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) (m ((c.tc : Thread Cert.KernelIdeal.nD Cert.KernelIdeal.τ).loc Cert.KernelIdeal.main_arg2)),
    fun c => Cert.Spec.refC (Cert.Spec.gatePre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (Cert.Spec.gatePre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (Cert.Spec.gatePre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) (m ((c.tc : Thread Cert.KernelIdeal.nD Cert.KernelIdeal.τ).loc Cert.KernelIdeal.main_arg2)), ?_, ?_⟩
  · refine (θ_run Cert.KernelIdeal.defs _ _).mono (fun _ h c => ⟨?_, ?_,
      (h c _ (Cert.KernelIdeal.Hand.mem_uc Cert.KernelIdeal.main_arg0 (by decide))).trans (Cert.KernelIdeal.Hand.B3_main_arg0 m c),
      (h c _ (Cert.KernelIdeal.Hand.mem_uc Cert.KernelIdeal.main_arg1 (by decide))).trans (Cert.KernelIdeal.Hand.B3_main_arg1 m c),
      (h c _ (Cert.KernelIdeal.Hand.mem_uc Cert.KernelIdeal.main_arg2 (by decide))).trans (Cert.KernelIdeal.Hand.B3_main_arg2 m c),
      (h c _ (Cert.KernelIdeal.Hand.mem_uc Cert.KernelIdeal.main_arg3 (by decide))).trans (Cert.KernelIdeal.Hand.B3_main_arg3 m c),
      (h c _ (Cert.KernelIdeal.Hand.mem_uc Cert.KernelIdeal.main_arg4 (by decide))).trans (Cert.KernelIdeal.Hand.B3_main_arg4 m c),
      (h c _ (Cert.KernelIdeal.Hand.mem_uc Cert.KernelIdeal.main_arg5 (by decide))).trans (Cert.KernelIdeal.Hand.B3_main_arg5 m c),
      (h c _ (Cert.KernelIdeal.Hand.mem_uc Cert.KernelIdeal.main_arg6 (by decide))).trans (Cert.KernelIdeal.Hand.B3_main_arg6 m c),
      (h c _ (Cert.KernelIdeal.Hand.mem_uc Cert.KernelIdeal.main_arg7 (by decide))).trans (Cert.KernelIdeal.Hand.B3_main_arg7 m c),
      (h c _ (Cert.KernelIdeal.Hand.mem_uc Cert.KernelIdeal.main_arg8 (by decide))).trans (Cert.KernelIdeal.Hand.B3_main_arg8 m c),
      (h c _ (Cert.KernelIdeal.Hand.mem_uc Cert.KernelIdeal.main_arg9 (by decide))).trans (Cert.KernelIdeal.Hand.B3_main_arg9 m c),
      (h c _ (Cert.KernelIdeal.Hand.mem_uc Cert.KernelIdeal.main_arg10 (by decide))).trans (Cert.KernelIdeal.Hand.B3_main_arg10 m c),
      (h c _ (Cert.KernelIdeal.Hand.mem_uc Cert.KernelIdeal.main_arg11 (by decide))).trans (Cert.KernelIdeal.Hand.B3_main_arg11 m c),
      (h c _ (Cert.KernelIdeal.Hand.mem_uc Cert.KernelIdeal.main_arg12 (by decide))).trans (Cert.KernelIdeal.Hand.B3_main_arg12 m c),
      (h c _ (Cert.KernelIdeal.Hand.mem_uc Cert.KernelIdeal.main_arg13 (by decide))).trans (Cert.KernelIdeal.Hand.B3_main_arg13 m c),
      (h c _ (Cert.KernelIdeal.Hand.mem_uc Cert.KernelIdeal.main_arg14 (by decide))).trans (Cert.KernelIdeal.Hand.B3_main_arg14 m c),
      (h c _ (Cert.KernelIdeal.Hand.mem_uc Cert.KernelIdeal.main_arg15 (by decide))).trans (Cert.KernelIdeal.Hand.B3_main_arg15 m c),
      (h c _ (Cert.KernelIdeal.Hand.mem_uc Cert.KernelIdeal.main_arg16 (by decide))).trans (Cert.KernelIdeal.Hand.B3_main_arg16 m c),
      (h c _ (Cert.KernelIdeal.Hand.mem_uc Cert.KernelIdeal.main_arg17 (by decide))).trans (Cert.KernelIdeal.Hand.B3_main_arg17 m c),
      (h c _ (Cert.KernelIdeal.Hand.mem_uc Cert.KernelIdeal.main_arg18 (by decide))).trans (Cert.KernelIdeal.Hand.B3_main_arg18 m c)⟩) (Cert.KernelIdeal.Hand.run_all (F := Ideal) m ρ)
    · exact (h c _ (Cert.KernelIdeal.Hand.mem_uc Cert.KernelIdeal.main_v31_0 (by decide))).trans (Cert.KernelIdeal.Val.kernel_hidden m c)
    · exact (h c _ (Cert.KernelIdeal.Hand.mem_uc Cert.KernelIdeal.main_v31_1 (by decide))).trans (Cert.KernelIdeal.Val.kernel_cell m c)
  · refine (θ_run Cert.ReferenceIdeal.defs _ _).mono (fun _ h c => ⟨?_, ?_, (h c).2.2⟩) (Cert.ReferenceIdeal.Value.run (F := Ideal) m' ρ')
    · refine (h c).1.trans ((Cert.ReferenceIdeal.Read.val_main_v67_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))).trans ?_)
      refine (Cert.ReferenceIdeal.RefValue.ref_hidden (x0 := (m' ((c.tc : Thread Cert.ReferenceIdeal.nD Cert.ReferenceIdeal.τ).loc Cert.ReferenceIdeal.main_arg0))) (x1 := (m' ((c.tc : Thread Cert.ReferenceIdeal.nD Cert.ReferenceIdeal.τ).loc Cert.ReferenceIdeal.main_arg1))) (x2 := (m' ((c.tc : Thread Cert.ReferenceIdeal.nD Cert.ReferenceIdeal.τ).loc Cert.ReferenceIdeal.main_arg2))) (x3 := (m' ((c.tc : Thread Cert.ReferenceIdeal.nD Cert.ReferenceIdeal.τ).loc Cert.ReferenceIdeal.main_arg3))) (x4 := (m' ((c.tc : Thread Cert.ReferenceIdeal.nD Cert.ReferenceIdeal.τ).loc Cert.ReferenceIdeal.main_arg4))) (x5 := (m' ((c.tc : Thread Cert.ReferenceIdeal.nD Cert.ReferenceIdeal.τ).loc Cert.ReferenceIdeal.main_arg5))) (x6 := (m' ((c.tc : Thread Cert.ReferenceIdeal.nD Cert.ReferenceIdeal.τ).loc Cert.ReferenceIdeal.main_arg6))) (x7 := (m' ((c.tc : Thread Cert.ReferenceIdeal.nD Cert.ReferenceIdeal.τ).loc Cert.ReferenceIdeal.main_arg7))) (x8 := (m' ((c.tc : Thread Cert.ReferenceIdeal.nD Cert.ReferenceIdeal.τ).loc Cert.ReferenceIdeal.main_arg8))) (x9 := (m' ((c.tc : Thread Cert.ReferenceIdeal.nD Cert.ReferenceIdeal.τ).loc Cert.ReferenceIdeal.main_arg9))) (x10 := (m' ((c.tc : Thread Cert.ReferenceIdeal.nD Cert.ReferenceIdeal.τ).loc Cert.ReferenceIdeal.main_arg10))) (x11 := (m' ((c.tc : Thread Cert.ReferenceIdeal.nD Cert.ReferenceIdeal.τ).loc Cert.ReferenceIdeal.main_arg11))) (x12 := (m' ((c.tc : Thread Cert.ReferenceIdeal.nD Cert.ReferenceIdeal.τ).loc Cert.ReferenceIdeal.main_arg12))) (x13 := (m' ((c.tc : Thread Cert.ReferenceIdeal.nD Cert.ReferenceIdeal.τ).loc Cert.ReferenceIdeal.main_arg13))) (x14 := (m' ((c.tc : Thread Cert.ReferenceIdeal.nD Cert.ReferenceIdeal.τ).loc Cert.ReferenceIdeal.main_arg14))) (x15 := (m' ((c.tc : Thread Cert.ReferenceIdeal.nD Cert.ReferenceIdeal.τ).loc Cert.ReferenceIdeal.main_arg15))) (x16 := (m' ((c.tc : Thread Cert.ReferenceIdeal.nD Cert.ReferenceIdeal.τ).loc Cert.ReferenceIdeal.main_arg16))) (x17 := (m' ((c.tc : Thread Cert.ReferenceIdeal.nD Cert.ReferenceIdeal.τ).loc Cert.ReferenceIdeal.main_arg17))) (x18 := (m' ((c.tc : Thread Cert.ReferenceIdeal.nD Cert.ReferenceIdeal.τ).loc Cert.ReferenceIdeal.main_arg18)))).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
    · refine (h c).2.1.trans ((Cert.ReferenceIdeal.Read.val_main_v65_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))).trans ?_)
      refine (Cert.ReferenceIdeal.RefValue.ref_cell (x0 := (m' ((c.tc : Thread Cert.ReferenceIdeal.nD Cert.ReferenceIdeal.τ).loc Cert.ReferenceIdeal.main_arg0))) (x1 := (m' ((c.tc : Thread Cert.ReferenceIdeal.nD Cert.ReferenceIdeal.τ).loc Cert.ReferenceIdeal.main_arg1))) (x2 := (m' ((c.tc : Thread Cert.ReferenceIdeal.nD Cert.ReferenceIdeal.τ).loc Cert.ReferenceIdeal.main_arg2))) (x3 := (m' ((c.tc : Thread Cert.ReferenceIdeal.nD Cert.ReferenceIdeal.τ).loc Cert.ReferenceIdeal.main_arg3))) (x4 := (m' ((c.tc : Thread Cert.ReferenceIdeal.nD Cert.ReferenceIdeal.τ).loc Cert.ReferenceIdeal.main_arg4))) (x5 := (m' ((c.tc : Thread Cert.ReferenceIdeal.nD Cert.ReferenceIdeal.τ).loc Cert.ReferenceIdeal.main_arg5))) (x6 := (m' ((c.tc : Thread Cert.ReferenceIdeal.nD Cert.ReferenceIdeal.τ).loc Cert.ReferenceIdeal.main_arg6))) (x7 := (m' ((c.tc : Thread Cert.ReferenceIdeal.nD Cert.ReferenceIdeal.τ).loc Cert.ReferenceIdeal.main_arg7))) (x8 := (m' ((c.tc : Thread Cert.ReferenceIdeal.nD Cert.ReferenceIdeal.τ).loc Cert.ReferenceIdeal.main_arg8))) (x9 := (m' ((c.tc : Thread Cert.ReferenceIdeal.nD Cert.ReferenceIdeal.τ).loc Cert.ReferenceIdeal.main_arg9))) (x10 := (m' ((c.tc : Thread Cert.ReferenceIdeal.nD Cert.ReferenceIdeal.τ).loc Cert.ReferenceIdeal.main_arg10))) (x11 := (m' ((c.tc : Thread Cert.ReferenceIdeal.nD Cert.ReferenceIdeal.τ).loc Cert.ReferenceIdeal.main_arg11))) (x12 := (m' ((c.tc : Thread Cert.ReferenceIdeal.nD Cert.ReferenceIdeal.τ).loc Cert.ReferenceIdeal.main_arg12))) (x13 := (m' ((c.tc : Thread Cert.ReferenceIdeal.nD Cert.ReferenceIdeal.τ).loc Cert.ReferenceIdeal.main_arg13))) (x14 := (m' ((c.tc : Thread Cert.ReferenceIdeal.nD Cert.ReferenceIdeal.τ).loc Cert.ReferenceIdeal.main_arg14)))).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
